-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x256 : Shape := ⟨2, ![256, 256]⟩
abbrev S256 : Shape := ⟨1, ![256]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S256x256 .f32) (main_arg4 : FVec F S256 .f32) (main_arg5 : FVec F S512x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x128 .f32 := Host.absf main_arg5
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S256x256 : Shape := ⟨2, ![256, 256]⟩
abbrev S256 : Shape := ⟨1, ![256]⟩
abbrev S512x128 : Shape := ⟨2, ![512, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S256x128 : Shape := ⟨2, ![256, 128]⟩
abbrev S1x128 : Shape := ⟨2, ![1, 128]⟩
abbrev S2000 : Shape := ⟨1, ![2000]⟩
abbrev S2000x1 : Shape := ⟨2, ![2000, 1]⟩

abbrev nBuf : Space → Nat
  | .hbm => 58
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S512x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S128x256, .f32⟩
  | .hbm, ⟨36, _⟩ => ⟨S128x256, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S256x128, .f32⟩
  | .hbm, ⟨55, _⟩ => ⟨S256x128, .f32⟩
  | .hbm, ⟨56, _⟩ => ⟨S1x128, .f32⟩
  | .hbm, ⟨57, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S256x256_S128x256_0_0 : S256x256.Slices ![0, 0] S128x256
  slices_S256x256_S128x256_128_0 : S256x256.Slices ![128, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S512x128_S256x128_0_0 : S512x128.Slices ![0, 0] S256x128
  slices_S512x128_S256x128_256_0 : S512x128.Slices ![256, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S256x256 : Shape := ⟨2, ![256, 256]⟩
abbrev S256 : Shape := ⟨1, ![256]⟩
abbrev S512x128 : Shape := ⟨2, ![512, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x512 : Shape := ⟨2, ![50000, 512]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S512x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S50000x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S50000x512, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000, .f32⟩
  | .hbm, ⟨74, _⟩ => ⟨S50000x1, .f32⟩
  | .hbm, ⟨75, _⟩ => ⟨S50000x1, .f32⟩
  | .hbm, ⟨76, _⟩ => ⟨S50000x128, .f32⟩
  | .hbm, ⟨77, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_call1_cst_0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_cst_1 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_v44 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x512_S512x128_S50000x128_1_0_0_1_n_n_wf : DotDims.WF S50000x512 S512x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.Spec.lean ====
/-
  The two-layer mean-pooling graph network, index by index, on the extended reals.

  Each layer maps node features `h` and pooled neighbour features `a` to `[h ‖ a] · W + b`: entry `(r, j)` is
  `∑ₖ h[r,k]·W[k,j] + ∑ₖ a[r,k]·W[D+k,j] + b[j]`, the contraction over the joined axis split at its seam. The first
  layer ends in a rectifier `max(·, 0)`, the second in a row-wise log-softmax. The log-softmax is written in the
  two arrangements that occur: `y − (M + log Σ exp(y − M))` and `(y − M) − log Σ exp(y − M)`, with `M` the row's
  maximum. They agree when `M` is a real number; at an infinite maximum they do not, so the rows must be finite.
-/
import Idealize.ShloMosaic.PureOps.Ideal
import Idealize.ShloMosaic.Lib.ValueIdx

noncomputable section

namespace Cert.Sage

open Idealize.ShloMosaic Idealize.ShloMosaic.ValueIdx

abbrev N128 : Shape := ⟨2, ![50000, 128]⟩
abbrev N256 : Shape := ⟨2, ![50000, 256]⟩

/-! ## The linear layers, with the weight whole (rows `0..D-1` meet the node's own features, rows `D..2D-1` the pooled ones) -/

/-- Entry `(r, j)` of the first layer's affine map. -/
def lin1At (h a : N128.Idx → EReal) (W : (⟨2, ![256, 256]⟩ : Shape).Idx → EReal) (b : (⟨1, ![256]⟩ : Shape).Idx → EReal)
    (r : Fin 50000) (j : Fin 256) : EReal :=
  (∑ k : Fin 128, h (ix2 r k) * W (ix2 (⟨k.val, by omega⟩ : Fin 256) j))
    + (∑ k : Fin 128, a (ix2 r k) * W (ix2 (⟨128 + k.val, by omega⟩ : Fin 256) j))
    + b (ix1 j)

def lin1 (h a : N128.Idx → EReal) (W : (⟨2, ![256, 256]⟩ : Shape).Idx → EReal) (b : (⟨1, ![256]⟩ : Shape).Idx → EReal) :
    N256.Idx → EReal := fun i => lin1At h a W b (i 0) (i 1)

/-- Entry `(r, j)` of the second layer's affine map. -/
def lin2At (h a : N256.Idx → EReal) (W : (⟨2, ![512, 128]⟩ : Shape).Idx → EReal) (b : (⟨1, ![128]⟩ : Shape).Idx → EReal)
    (r : Fin 50000) (j : Fin 128) : EReal :=
  (∑ k : Fin 256, h (ix2 r k) * W (ix2 (⟨k.val, by omega⟩ : Fin 512) j))
    + (∑ k : Fin 256, a (ix2 r k) * W (ix2 (⟨256 + k.val, by omega⟩ : Fin 512) j))
    + b (ix1 j)

def lin2 (h a : N256.Idx → EReal) (W : (⟨2, ![512, 128]⟩ : Shape).Idx → EReal) (b : (⟨1, ![128]⟩ : Shape).Idx → EReal) :
    N128.Idx → EReal := fun i => lin2At h a W b (i 0) (i 1)

/-! ## The same layers with the weight already cut at the seam and the bias as a one-row matrix -/

def linK1At (h a : N128.Idx → EReal) (Wh Wa : (⟨2, ![128, 256]⟩ : Shape).Idx → EReal) (b : (⟨2, ![1, 256]⟩ : Shape).Idx → EReal)
    (r : Fin 50000) (j : Fin 256) : EReal :=
  (∑ k : Fin 128, h (ix2 r k) * Wh (ix2 k j)) + (∑ k : Fin 128, a (ix2 r k) * Wa (ix2 k j)) + b (ix2 (0 : Fin 1) j)

def linK1 (h a : N128.Idx → EReal) (Wh Wa : (⟨2, ![128, 256]⟩ : Shape).Idx → EReal) (b : (⟨2, ![1, 256]⟩ : Shape).Idx → EReal) :
    N256.Idx → EReal := fun i => linK1At h a Wh Wa b (i 0) (i 1)

def linK2At (h a : N256.Idx → EReal) (Wh Wa : (⟨2, ![256, 128]⟩ : Shape).Idx → EReal) (b : (⟨2, ![1, 128]⟩ : Shape).Idx → EReal)
    (r : Fin 50000) (j : Fin 128) : EReal :=
  (∑ k : Fin 256, h (ix2 r k) * Wh (ix2 k j)) + (∑ k : Fin 256, a (ix2 r k) * Wa (ix2 k j)) + b (ix2 (0 : Fin 1) j)

def linK2 (h a : N256.Idx → EReal) (Wh Wa : (⟨2, ![256, 128]⟩ : Shape).Idx → EReal) (b : (⟨2, ![1, 128]⟩ : Shape).Idx → EReal) :
    N128.Idx → EReal := fun i => linK2At h a Wh Wa b (i 0) (i 1)

/-! ## The rectifier and the log-softmax -/

/-- `max(y, 0)`, entry by entry. -/
def relu {s : Shape} (y : s.Idx → EReal) : s.Idx → EReal := fun i => max (y i) 0

/-- The maximum of a row of 128 entries, folded from `-∞`. -/
def rowMax (y : Fin 128 → EReal) : EReal := (Finset.univ : Finset (Fin 128)).fold max ⊥ y

/-- Entry `(r, j)` of the log-softmax as `y − (M + log Σ exp(y − M))`. -/
def lsmKAt (y : N128.Idx → EReal) (r : Fin 50000) (j : Fin 128) : EReal :=
  y (ix2 r j) - (rowMax (fun l => y (ix2 r l))
    + Ideal.log (∑ l : Fin 128, Ideal.exp (y (ix2 r l) - rowMax (fun l' => y (ix2 r l')))))

def lsmK (y : N128.Idx → EReal) : N128.Idx → EReal := fun i => lsmKAt y (i 0) (i 1)

/-- Entry `(r, j)` of the log-softmax as `(y − M) − log Σ exp(y − M)`. -/
def lsmRAt (y : N128.Idx → EReal) (r : Fin 50000) (j : Fin 128) : EReal :=
  (y (ix2 r j) - rowMax (fun l => y (ix2 r l)))
    - Ideal.log (∑ l : Fin 128, Ideal.exp (y (ix2 r l) - rowMax (fun l' => y (ix2 r l'))))

def lsmR (y : N128.Idx → EReal) : N128.Idx → EReal := fun i => lsmRAt y (i 0) (i 1)

end Cert.Sage

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPay0.lean ====
/-
  One grid point of the first layer: a block of 2000 rows by 256 columns. Entry (p, q) of what the body stores is
  max(∑ₖ x0[p,k]·x2[k,q] + ∑ₖ x1[p,k]·x3[k,q] + x4[0,q], 0): each product accumulates into zero, a change of float
  format is the identity on the extended reals, and the one bias row is repeated down the rows. When x0 and x1 are
  rows 2000·n … 2000·n + 1999 of the node and pooled features and x2, x3, x4 the whole weights and bias, that entry
  is the rectified affine map at row 2000·n + p.
-/
import proofs.«160203_j28913719837490_1_alg».proof.Proof.Gen.KernelIdeal.Skeleton
import proofs.«160203_j28913719837490_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K0

open Idealize.ShloMosaic Idealize.ShloMosaic.ValueIdx Idealize.SL.Sem
open Cert.KernelIdeal Cert.KernelIdeal.Gen Cert.Sage

/-! ## The contraction's operand indices: at output (r, c) and contraction coordinate k they are (r, k) and (k, c) -/

theorem lhs_dot0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_dot0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_dot0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_dot0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A [2000,128] by [128,256] product into the zero accumulator: entry (p, q) is ∑ₖ a[p,k]·b[k,q]. -/
theorem blockProduct_apply {φ₁ φ₂ : FTy} (a : FVec Ideal S2000x128 φ₁) (b : FVec Ideal S128x256 φ₂) (p : Fin 2000) (q : Fin 256) :
    FloatOps.matmul dot_S2000x128_S128x256_S2000x256_1_0_0_1_n_n none a b (constant (F := Ideal) S2000x256 .f32 0x00000000#32) (ix2 p q)
      = ∑ k : Fin 128, a (ix2 p k) * b (ix2 k q) := by
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [el, er]

/-! ## The body's arithmetic at an entry -/

/-- Entry (p, q) of what the body stores, from its five loaded blocks. -/
theorem pay0 (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q)) 0 := by
  unfold k0_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x256_S2000x256 p q)
  refine (addf_apply _ _ (ix2 p q)).trans ?_
  exact congrArg₂ (· + ·) (blockProduct_apply (truncf .bf16 x0 bitsLt_bf16_f32) (truncf .bf16 x2 bitsLt_bf16_f32) p q)
    (blockProduct_apply (truncf .bf16 x1 bitsLt_bf16_f32) (truncf .bf16 x3 bitsLt_bf16_f32) p q)

/-- When the two row blocks are rows `2000 n …` of `h` and `a` and the other three blocks are `Wh`, `Wa`, `b` whole, the
    block's entry `j` is the rectified affine map at the array index `i` that sits `2000 n` rows below `j`. -/
theorem pay0_at (x0 x1 : Vec Ideal S2000x128 .f32) (x2 x3 : Vec Ideal S128x256 .f32) (x4 : Vec Ideal S1x256 .f32)
    (h a : N128.Idx → EReal) (Wh Wa : S128x256.Idx → EReal) (b : S1x256.Idx → EReal) (n : Nat)
    (h0 : ∀ (y : S2000x128.Idx) (k : N128.Idx), (k 0).val = n * 2000 + (y 0).val → (k 1).val = (y 1).val → x0 y = h k)
    (h1 : ∀ (y : S2000x128.Idx) (k : N128.Idx), (k 0).val = n * 2000 + (y 0).val → (k 1).val = (y 1).val → x1 y = a k)
    (h2 : x2 = Wh) (h3 : x3 = Wa) (h4 : x4 = b)
    (j : S2000x256.Idx) (i : N256.Idx) (hi0 : (i 0).val = n * 2000 + (j 0).val) (hi1 : (i 1).val = (j 1).val) :
    k0_pay1 (F := Ideal) x0 x1 x2 x3 x4 j = relu (linK1 h a Wh Wa b) i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  obtain rfl : s = q := Fin.ext hi1
  subst h2 h3 h4
  rw [pay0]
  show _ = max ((∑ k : Fin 128, h (ix2 r k) * x2 (ix2 k s)) + (∑ k : Fin 128, a (ix2 r k) * x3 (ix2 k s)) + x4 (ix2 (0 : Fin 1) s)) 0
  rw [Finset.sum_congr rfl fun k _ => congrArg (· * x2 (ix2 k s)) (h0 (ix2 p k) (ix2 r k) hi0 rfl),
    Finset.sum_congr rfl fun k _ => congrArg (· * x3 (ix2 k s)) (h1 (ix2 p k) (ix2 r k) hi0 rfl)]

end Cert.Sage.K0

end
-- ==== Proof.KArr0.lean ====
/-
  The first layer's kernel, from blocks to the whole array. The grid has 25 points. At point t the three row windows
  hold rows 2000·t … 2000·t + 1999 of the node features, of the pooled features and of the result; the two weight
  windows and the bias window hold their whole arrays at every point. So point t writes back block t of
  relu(h·Wh + a·Wa + b), and since row r lies in block r / 2000 the 25 blocks fill the 50000 rows: after the region
  the result array is that function of the arrays the region found.
-/
import proofs.«160203_j28913719837490_1_alg».proof.Proof.Gen.KernelIdeal.Frame
import proofs.«160203_j28913719837490_1_alg».proof.Proof.Spec
import proofs.«160203_j28913719837490_1_alg».proof.Proof.LibColumn
import proofs.«160203_j28913719837490_1_alg».proof.Proof.KPay0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the three row windows sit at block (t, 0), the weight and bias windows at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read off its array: an entry sits at block index × block size + its own coordinate -/

/-- Window 0's block at point `t` is rows `2000 t … 2000 t + 1999` of the node features. -/
theorem rows_h (c : Dev nD) (t : Fin cfg0.N) (y : S2000x128.Idx) (k : N128.Idx)
    (hk0 : (k 0).val = t.val * 2000 + (y 0).val) (hk1 : (k 1).val = (y 1).val) :
    (iblk0 (F := Ideal) V c 0 t : Vec Ideal S2000x128 .f32) y = (V c main_arg0 : N128.Idx → EReal) k := by
  obtain ⟨e0, e1, -⟩ := block_index t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * (y 0).val = (k 0).val; rw [e0, hk0]; omega
  | ⟨1, _⟩ => show win0_0.index t (1 : Fin 2) * 128 + 1 * (y 1).val = (k 1).val; rw [e1, hk1]; omega

/-- Window 1's block at point `t` is the same rows of the pooled features. -/
theorem rows_a (c : Dev nD) (t : Fin cfg0.N) (y : S2000x128.Idx) (k : N128.Idx)
    (hk0 : (k 0).val = t.val * 2000 + (y 0).val) (hk1 : (k 1).val = (y 1).val) :
    (iblk0 (F := Ideal) V c 1 t : Vec Ideal S2000x128 .f32) y = (V c main_v20 : N128.Idx → EReal) k := by
  obtain ⟨-, -, e0, e1, -⟩ := block_index t
  unfold iblk0
  rw [View.read_apply]
  show V c main_v20 _ = V c main_v20 _
  refine congrArg (V c main_v20) (funext fun a => Fin.ext ?_)
  match a with
  | ⟨0, _⟩ => show win0_1.index t (0 : Fin 2) * 2000 + 1 * (y 0).val = (k 0).val; rw [e0, hk0]; omega
  | ⟨1, _⟩ => show win0_1.index t (1 : Fin 2) * 128 + 1 * (y 1).val = (k 1).val; rw [e1, hk1]; omega

/-- Window 2's one block is the whole weight that meets the node's own features. -/
theorem whole_Wh (c : Dev nD) (t : Fin cfg0.N) :
    (iblk0 (F := Ideal) V c 2 t : Vec Ideal S128x256 .f32) = (V c main_v21 : S128x256.Idx → EReal) := by
  obtain ⟨-, -, -, -, e0, e1, -⟩ := block_index t
  funext y
  unfold iblk0
  rw [View.read_apply]
  show V c main_v21 _ = V c main_v21 _
  refine congrArg (V c main_v21) (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

/-- Window 3's one block is the whole weight that meets the pooled features. -/
theorem whole_Wa (c : Dev nD) (t : Fin cfg0.N) :
    (iblk0 (F := Ideal) V c 3 t : Vec Ideal S128x256 .f32) = (V c main_v22 : S128x256.Idx → EReal) := by
  obtain ⟨-, -, -, -, -, -, e0, e1, -⟩ := block_index t
  funext y
  unfold iblk0
  rw [View.read_apply]
  show V c main_v22 _ = V c main_v22 _
  refine congrArg (V c main_v22) (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- Window 4's one block is the whole bias row. -/
theorem whole_b (c : Dev nD) (t : Fin cfg0.N) :
    (iblk0 (F := Ideal) V c 4 t : Vec Ideal S1x256 .f32) = (V c main_v23 : S1x256.Idx → EReal) := by
  obtain ⟨-, -, -, -, -, -, -, -, e0, e1, -⟩ := block_index t
  funext y
  unfold iblk0
  rw [View.read_apply]
  show V c main_v23 _ = V c main_v23 _
  refine congrArg (V c main_v23) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-! ## What a point writes back, and the blocks together -/

/-- What point `t` writes back is block `t` of the rectified affine map of the arrays the region finds. -/
theorem writes_back (c : Dev nD) (t : Fin cfg0.N) :
    (dat0 (F := Ideal) V c).flushed 5 t = ((cfg0.win 5).blk t).view.read (Elt Ideal)
      (relu (linK1 (V c main_arg0) (V c main_v20) (V c main_v21) (V c main_v22) (V c main_v23))) := by
  show (cfg0.win 5).cut (grid0.coords t) ((dat0 V c).after 5 t) = _
  rw [after0_5]
  unfold out0_5
  rw [View.canon_unit_zero offsets_zero]
  simp only [View.ld_unit_zero (S := S2000x128) offsets_zero, View.ld_unit_zero (S := S128x256) offsets_zero, View.ld_unit_zero (S := S1x256) offsets_zero]
  obtain ⟨-, -, -, -, -, -, -, -, -, -, e0, e1⟩ := block_index t
  funext j
  show k0_pay1 (F := Ideal) (iblk0 V c 0 t) (iblk0 V c 1 t) (iblk0 V c 2 t) (iblk0 V c 3 t) (iblk0 V c 4 t) j
    = relu (linK1 (V c main_arg0) (V c main_v20) (V c main_v21) (V c main_v22) (V c main_v23)) (((cfg0.win 5).blk t).view.emb j)
  refine pay0_at (iblk0 V c 0 t) (iblk0 V c 1 t) (iblk0 V c 2 t) (iblk0 V c 3 t) (iblk0 V c 4 t)
    (V c main_arg0) (V c main_v20) (V c main_v21) (V c main_v22) (V c main_v23) t.val
    (fun y k hk0 hk1 => rows_h V c t y k hk0 hk1) (fun y k hk0 hk1 => rows_a V c t y k hk0 hk1)
    (whole_Wh V c t) (whole_Wa V c t) (whole_b V c t) j (((cfg0.win 5).blk t).view.emb j) ?_ ?_
  · show win0_5.index t (0 : Fin 2) * 2000 + 1 * (j 0).val = t.val * 2000 + (j 0).val; rw [e0]; omega
  · show win0_5.index t (1 : Fin 2) * 256 + 1 * (j 1).val = (j 1).val; rw [e1]; omega

/-- An index of the array is in point `t`'s block iff each coordinate is in the block's range on its axis. -/
theorem mem_block (t : Fin cfg0.N) (i : N256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Every index of the array is in some point's block: row `r` is in block `r / 2000`. -/
theorem blocks_fill (i : N256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 25 := N_0
  have ht : (i 0).val / 2000 < cfg0.N := by show (i 0).val / 2000 < grid0.N; omega
  obtain ⟨-, -, -, -, -, -, -, -, -, -, e0, e1⟩ := block_index ⟨(i 0).val / 2000, ht⟩
  refine ⟨⟨(i 0).val / 2000, ht⟩, flush0_5 _, ?_⟩
  rw [mem_block]
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win0_5.index ⟨(i 0).val / 2000, ht⟩ (1 : Fin 2) * 256 ≤ (i 1).val ∧ (i 1).val < win0_5.index ⟨(i 0).val / 2000, ht⟩ (1 : Fin 2) * 256 + 256; rw [e1]; omega

/-- THE ARRAY after region 0: relu of the arrays the region finds, whatever they hold. -/
theorem arr0_eq (c : Dev nD) :
    (dat0 (F := Ideal) V c).arrAt 5 cfg0.N = relu (linK1 (V c main_arg0) (V c main_v20) (V c main_v21) (V c main_v22) (V c main_v23)) :=
  (dat0 (F := Ideal) V c).arrAt_eq_of_cover 5 (relu (linK1 (V c main_arg0) (V c main_v20) (V c main_v21) (V c main_v22) (V c main_v23)))
    (fun t _ => writes_back V c t) blocks_fill

end Cert.Sage.K0

end
-- ==== Proof.KPay1.lean ====
/-
  The second layer's kernel body at one entry of its block.

  On a block of 2000 rows the body forms `y = h · Wh + a · Wa + b` (two products over 256 shared coordinates, accumulated
  into zero, and a bias row spread over the rows; the narrowing of the operands is the identity on extended reals), then
  per row the maximum `M` of the 128 lanes taken from −∞ and the sum `Σ` of `exp (y − M)` taken from zero, each kept
  as a column and spread back over the lanes, and stores `y − (M + log Σ)`. Read at `(p, q)` this is the log-softmax
  of row `p` of `y` at lane `q`, in that arrangement.
-/
import proofs.«160203_j28913719837490_1_alg».proof.Proof.Gen.KernelIdeal.Skeleton
import proofs.«160203_j28913719837490_1_alg».proof.Proof.Spec
import proofs.«160203_j28913719837490_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K1

open Idealize.ShloMosaic Idealize.ShloMosaic.ValueIdx Idealize.SL.Sem
open Cert.KernelIdeal Cert.KernelIdeal.Gen Cert.Sage

/-! ## The contraction's operand indices, axis by axis

At output index `i = (r, c)` and contraction position `k` the left operand is read at `(r, k)` and the right at `(k, c)`. -/

theorem dotL_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dotL_contr (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem dotR_contr (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem dotR_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product of a 2000×256 block and a 256×128 matrix, accumulated into zero, at `(p, q)`: the sum over the 256 shared
    coordinates. -/
theorem matmul_zero_apply (a : FVec Ideal S2000x256 .bf16) (w : FVec Ideal S256x128 .bf16) (p : Fin 2000) (q : Fin 128) :
    matmul dot_S2000x256_S256x128_S2000x128_1_0_0_1_n_n none a w (constant (F := Ideal) S2000x128 .f32 0x00000000#32) (ix2 p q)
      = ∑ k : Fin 256, a (ix2 p k) * w (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact dotL_row _ _
    | ⟨1, _⟩ => exact (dotL_contr _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (dotR_contr _ _).trans hk
    | ⟨1, _⟩ => exact dotR_col _ _)
  rw [el, er]

/-! ## The two lane reductions of a 2000×128 block, at a row -/

/-- The word of the maximum's accumulator is −∞. -/
theorem ofBits_negInf : Ideal.ofBits .f32 0xFF800000#32 = (⊥ : EReal) := by simp [Ideal.ofBits, Ideal.ieee]

/-- The index a lane reduction reads at row `p` and lane `l` is `(p, l)`. -/
theorem lift_row (h : S2000x128.Reduces [1] S2000) (p : Fin 2000) (l : Fin 128) : h.lift (ix1 p) l = ix2 p l :=
  funext fun a => Fin.ext (by
    match a with
    | ⟨0, _⟩ => rfl
    | ⟨1, _⟩ => rfl)

/-- The maximum over the lanes, from −∞, at row `p`: the row's maximum. -/
theorem laneMax_apply (z : FVec Ideal S2000x128 .f32) (h : S2000x128.Reduces [1] S2000) (hφ : FKind.Formats .f32)
    (hacc : (0xFF800000#32 : BitVec 32) = FKind.maximumf.neutral .f32 hφ) (p : Fin 2000) :
    multiReduction (F := Ideal) .maximumf [1] S2000 z 0xFF800000#32 h hφ hacc (ix1 p) = rowMax (fun l => z (ix2 p l)) := by
  refine (Ideal.multiReduction_maximumf_single z 0xFF800000#32 h hφ hacc (ix1 p)).trans ?_
  unfold rowMax
  rw [Ideal.ofBits_def, ofBits_negInf]
  refine congrArg (fun f : Fin 128 → EReal => Finset.fold max ⊥ f Finset.univ) ?_
  funext l
  exact congrArg z (lift_row h p l)

/-- The sum over the lanes, from zero, at row `p`. -/
theorem laneSum_apply (z : FVec Ideal S2000x128 .f32) (h : S2000x128.Reduces [1] S2000) (hφ : FKind.Formats .f32)
    (hacc : (0x00000000#32 : BitVec 32) = FKind.add.neutral .f32 hφ) (p : Fin 2000) :
    multiReduction (F := Ideal) .add [1] S2000 z 0x00000000#32 h hφ hacc (ix1 p) = ∑ l : Fin 128, z (ix2 p l) := by
  refine (Ideal.multiReduction_add_single z 0x00000000#32 h hφ hacc (ix1 p)).trans ?_
  exact Finset.sum_congr rfl fun l _ => congrArg z (lift_row h p l)

/-! ## The body's arithmetic at an index of the block -/

/-- Entry `(p, q)` of the affine map on one block of 2000 rows: the two products over the 256 shared coordinates and the
    bias row. -/
def linB (x0 x1 : FVec Ideal S2000x256 .f32) (x2 x3 : FVec Ideal S256x128 .f32) (x4 : FVec Ideal S1x128 .f32)
    (p : Fin 2000) (q : Fin 128) : EReal :=
  (∑ k : Fin 256, x0 (ix2 p k) * x2 (ix2 k q)) + (∑ k : Fin 256, x1 (ix2 p k) * x3 (ix2 k q)) + x4 (ix2 (0 : Fin 1) q)

/-- The affine part of the body at `(p, q)`: the format changes and same-shape casts are identities, each product
    into zero is its sum, and the bias row is read at lane `q` whatever the row. -/
theorem lin_apply (x0 x1 : FVec Ideal S2000x256 .f32) (x2 x3 : FVec Ideal S256x128 .f32) (x4 : FVec Ideal S1x128 .f32)
    (hc0 : S2000x256.ShapeCasts S2000x256) (hc2 : S256x128.ShapeCasts S256x128) (hc4 : S1x128.ShapeCasts S1x128)
    (hlt : FTy.bits .bf16 < FTy.bits .f32) (hb : S1x128.Broadcasts S2000x128) (p : Fin 2000) (q : Fin 128) :
    addf (addf
        (matmul dot_S2000x256_S256x128_S2000x128_1_0_0_1_n_n none (truncf .bf16 (shapeCast S2000x256 x0 hc0) hlt)
          (truncf .bf16 (shapeCast S256x128 x2 hc2) hlt) (constant (F := Ideal) S2000x128 .f32 0x00000000#32))
        (matmul dot_S2000x256_S256x128_S2000x128_1_0_0_1_n_n none (truncf .bf16 (shapeCast S2000x256 x1 hc0) hlt)
          (truncf .bf16 (shapeCast S256x128 x3 hc2) hlt) (constant (F := Ideal) S2000x128 .f32 0x00000000#32)))
      (broadcastTo S2000x128 (shapeCast S1x128 x4 hc4) hb) (ix2 p q) = linB x0 x1 x2 x3 x4 p q := by
  rw [addf_apply, addf_apply, matmul_zero_apply, matmul_zero_apply, broadcastTo_1b_ab_apply,
    shapeCast_self x0 hc0, shapeCast_self x1 hc0, shapeCast_self x2 hc2, shapeCast_self x3 hc2, shapeCast_self x4 hc4]
  rfl

/-- The exponential of a vector, read at an index, is the exponential of the entry … -/
theorem exp_apply {s : Shape} {φ : FTy} (x : FVec Ideal s φ) (i : s.Idx) : exp x i = Ideal.exp (x i) := rfl
/-- … and so is the logarithm. -/
theorem log_apply {s : Shape} {φ : FTy} (x : FVec Ideal s φ) (i : s.Idx) : log x i = Ideal.log (x i) := rfl

/-- The log-softmax tail of the body over any block `z`, at `(p, q)`: the row's maximum `M` is taken over the lanes
    from −∞, made a column and spread back over the lanes; so is the sum of `exp (z − M)`, from zero; the entry is
    `z − (M + log Σ)`. -/
theorem lsm_tail_apply (z : FVec Ideal S2000x128 .f32) (hr : S2000x128.Reduces [1] S2000) (hφ : FKind.Formats .f32)
    (hm : (0xFF800000#32 : BitVec 32) = FKind.maximumf.neutral .f32 hφ)
    (ha : (0x00000000#32 : BitVec 32) = FKind.add.neutral .f32 hφ)
    (hc : S2000.ShapeCasts S2000x1) (hb : S2000x1.Broadcasts S2000x128) (p : Fin 2000) (q : Fin 128) :
    subf z (broadcastTo S2000x128
        (addf (shapeCast S2000x1 (multiReduction (F := Ideal) .maximumf [1] S2000 z 0xFF800000#32 hr hφ hm) hc)
          (log (shapeCast S2000x1 (multiReduction (F := Ideal) .add [1] S2000
            (exp (subf z (broadcastTo S2000x128
              (shapeCast S2000x1 (multiReduction (F := Ideal) .maximumf [1] S2000 z 0xFF800000#32 hr hφ hm) hc) hb)))
            0x00000000#32 hr hφ ha) hc))) hb) (ix2 p q)
      = z (ix2 p q) - (rowMax (fun l => z (ix2 p l))
          + Ideal.log (∑ l : Fin 128, Ideal.exp (z (ix2 p l) - rowMax (fun l' => z (ix2 p l'))))) := by
  generalize hMdef : shapeCast S2000x1 (multiReduction (F := Ideal) .maximumf [1] S2000 z 0xFF800000#32 hr hφ hm) hc = M
  have hM : ∀ (p' : Fin 2000) (u : Fin 1), M (ix2 p' u) = rowMax (fun l => z (ix2 p' l)) := fun p' u => by
    rw [← hMdef]
    exact (Cert.LibColumn.shapeCast_a_a1_apply _ hc p' u).trans (laneMax_apply z hr hφ hm p')
  generalize hEdef : exp (subf z (broadcastTo S2000x128 M hb)) = E
  have hE : ∀ (p' : Fin 2000) (l : Fin 128), E (ix2 p' l) = Ideal.exp (z (ix2 p' l) - rowMax (fun l' => z (ix2 p' l'))) :=
    fun p' l => by
      rw [← hEdef, exp_apply, subf_apply, Cert.LibColumn.broadcastTo_a1_ab_apply, hM]
  generalize hSdef : shapeCast S2000x1 (multiReduction (F := Ideal) .add [1] S2000 E 0x00000000#32 hr hφ ha) hc = S
  have hS : ∀ (p' : Fin 2000) (u : Fin 1),
      S (ix2 p' u) = ∑ l : Fin 128, Ideal.exp (z (ix2 p' l) - rowMax (fun l' => z (ix2 p' l'))) := fun p' u => by
    rw [← hSdef]
    exact (Cert.LibColumn.shapeCast_a_a1_apply _ hc p' u).trans
      ((laneSum_apply E hr hφ ha p').trans (Finset.sum_congr rfl fun l _ => hE p' l))
  rw [subf_apply, Cert.LibColumn.broadcastTo_a1_ab_apply, addf_apply, log_apply, hM, hS]

/-- THE BODY'S PAYLOAD at `(p, q)`: the log-softmax, in the arrangement `y − (M + log Σ exp (y − M))`, of the affine
    map of the loaded blocks. -/
theorem pay1_apply (x0 x1 : FVec Ideal S2000x256 .f32) (x2 x3 : FVec Ideal S256x128 .f32) (x4 : FVec Ideal S1x128 .f32)
    (p : Fin 2000) (q : Fin 128) :
    k1_pay1 (F := Ideal) x0 x1 x2 x3 x4 (ix2 p q)
      = linB x0 x1 x2 x3 x4 p q - (rowMax (fun l => linB x0 x1 x2 x3 x4 p l)
          + Ideal.log (∑ l : Fin 128, Ideal.exp (linB x0 x1 x2 x3 x4 p l - rowMax (fun l' => linB x0 x1 x2 x3 x4 p l')))) := by
  unfold k1_pay1
  refine (lsm_tail_apply _ _ _ _ _ _ _ p q).trans ?_
  simp only [lin_apply]

end Cert.Sage.K1

end
-- ==== Proof.KArr1.lean ====
/-
  The second layer's kernel, from blocks to the whole array.

  Grid point `t` of 25 stages rows `2000 t … 2000 t + 1999` of the two feature arrays, the two weight matrices and the
  bias row whole, and writes back rows `2000 t … 2000 t + 1999` of the result. An entry `(2000 t + p, q)` of the result
  depends on row `2000 t + p` of both feature arrays only, and that row lies whole in block `t`; so what point `t`
  writes back is block `t` of the log-softmax of the affine map of the arrays, and the 25 blocks cover the 50000 rows.
-/
import proofs.«160203_j28913719837490_1_alg».proof.Proof.Gen.KernelIdeal.Frame
import proofs.«160203_j28913719837490_1_alg».proof.Proof.Spec
import proofs.«160203_j28913719837490_1_alg».proof.Proof.LibColumn
import proofs.«160203_j28913719837490_1_alg».proof.Proof.KPay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-- The body reads and writes its staging buffers whole: every access starts at offset zero on both axes. -/
theorem zero_offsets : (![0, 0] : Fin 2 → Nat) = fun _ => 0 := funext fun a => by fin_cases a <;> rfl

/-- The printed index maps over the 25 grid points: the two row-blocked inputs and the output sit at block `(t, 0)`, the
    two weight matrices and the bias row at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the first row-blocked input at `(p, k)` is the array at row `2000 t + p`. -/
theorem blk0_apply (c : Dev nD) (t : Fin cfg1.N) (p : Fin 2000) (k : Fin 256) (r : Fin 50000) (hr : r.val = t.val * 2000 + p.val) :
    (iblk1 V c 0 t : FVec Ideal S2000x256 .f32) (ix2 p k) = (V c main_v24 : S50000x256.Idx → EReal) (ix2 r k) := by
  obtain ⟨e0, e1, -⟩ := block_indices t
  show V c main_v24 (((cfg1.win 0).blk t).view.emb (ix2 p k)) = V c main_v24 (ix2 r k)
  refine congrArg (V c main_v24) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Block `t` of the second row-blocked input at `(p, k)` is the array at row `2000 t + p`. -/
theorem blk1_apply (c : Dev nD) (t : Fin cfg1.N) (p : Fin 2000) (k : Fin 256) (r : Fin 50000) (hr : r.val = t.val * 2000 + p.val) :
    (iblk1 V c 1 t : FVec Ideal S2000x256 .f32) (ix2 p k) = (V c main_v36 : S50000x256.Idx → EReal) (ix2 r k) := by
  obtain ⟨-, -, e0, e1, -⟩ := block_indices t
  show V c main_v36 (((cfg1.win 1).blk t).view.emb (ix2 p k)) = V c main_v36 (ix2 r k)
  refine congrArg (V c main_v36) (funext fun a => Fin.ext ?_)
  match a with
  | ⟨0, _⟩ => show win1_1.index t (0 : Fin 2) * 2000 + 1 * p.val = r.val; omega
  | ⟨1, _⟩ => show win1_1.index t (1 : Fin 2) * 256 + 1 * k.val = k.val; omega

/-- The first weight matrix is staged whole at every point. -/
theorem blk2_apply (c : Dev nD) (t : Fin cfg1.N) (k : Fin 256) (q : Fin 128) :
    (iblk1 V c 2 t : FVec Ideal S256x128 .f32) (ix2 k q) = (V c main_v37 : S256x128.Idx → EReal) (ix2 k q) := by
  obtain ⟨-, -, -, -, e0, e1, -⟩ := block_indices t
  show V c main_v37 (((cfg1.win 2).blk t).view.emb (ix2 k q)) = V c main_v37 (ix2 k q)
  refine congrArg (V c main_v37) (funext fun a => Fin.ext ?_)
  match a with
  | ⟨0, _⟩ => show win1_2.index t (0 : Fin 2) * 256 + 1 * k.val = k.val; omega
  | ⟨1, _⟩ => show win1_2.index t (1 : Fin 2) * 128 + 1 * q.val = q.val; omega

/-- So is the second. -/
theorem blk3_apply (c : Dev nD) (t : Fin cfg1.N) (k : Fin 256) (q : Fin 128) :
    (iblk1 V c 3 t : FVec Ideal S256x128 .f32) (ix2 k q) = (V c main_v38 : S256x128.Idx → EReal) (ix2 k q) := by
  obtain ⟨-, -, -, -, -, -, e0, e1, -⟩ := block_indices t
  show V c main_v38 (((cfg1.win 3).blk t).view.emb (ix2 k q)) = V c main_v38 (ix2 k q)
  refine congrArg (V c main_v38) (funext fun a => Fin.ext ?_)
  match a with
  | ⟨0, _⟩ => show win1_3.index t (0 : Fin 2) * 256 + 1 * k.val = k.val; omega
  | ⟨1, _⟩ => show win1_3.index t (1 : Fin 2) * 128 + 1 * q.val = q.val; omega

/-- And the bias row. -/
theorem blk4_apply (c : Dev nD) (t : Fin cfg1.N) (u : Fin 1) (q : Fin 128) :
    (iblk1 V c 4 t : FVec Ideal S1x128 .f32) (ix2 u q) = (V c main_v39 : S1x128.Idx → EReal) (ix2 u q) := by
  obtain ⟨-, -, -, -, -, -, -, -, e0, e1, -⟩ := block_indices t
  show V c main_v39 (((cfg1.win 4).blk t).view.emb (ix2 u q)) = V c main_v39 (ix2 u q)
  refine congrArg (V c main_v39) (funext fun a => Fin.ext ?_)
  match a with
  | ⟨0, _⟩ => show win1_4.index t (0 : Fin 2) * 1 + 1 * u.val = u.val; omega
  | ⟨1, _⟩ => show win1_4.index t (1 : Fin 2) * 128 + 1 * q.val = q.val; omega

/-- The affine map of the blocks at point `t`, at `(p, l)`, is the affine map of the arrays at row `2000 t + p`: both
    contractions run along that one row, which lies in block `t` whole. -/
theorem lin_blocks (c : Dev nD) (t : Fin cfg1.N) (p : Fin 2000) (r : Fin 50000) (hr : r.val = t.val * 2000 + p.val) (l : Fin 128) :
    linB (iblk1 V c 0 t) (iblk1 V c 1 t) (iblk1 V c 2 t) (iblk1 V c 3 t) (iblk1 V c 4 t) p l
      = linK2 (V c main_v24) (V c main_v36) (V c main_v37) (V c main_v38) (V c main_v39) (ix2 r l) := by
  show linB (iblk1 V c 0 t) (iblk1 V c 1 t) (iblk1 V c 2 t) (iblk1 V c 3 t) (iblk1 V c 4 t) p l
    = linK2At (V c main_v24) (V c main_v36) (V c main_v37) (V c main_v38) (V c main_v39) r l
  unfold linB linK2At
  rw [blk4_apply V c t 0 l]
  refine congrArg (· + _) (congrArg₂ (· + ·) (Finset.sum_congr rfl fun k _ => ?_) (Finset.sum_congr rfl fun k _ => ?_))
  · rw [blk0_apply V c t p k r hr, blk2_apply V c t k l]
  · rw [blk1_apply V c t p k r hr, blk3_apply V c t k l]

/-- A row of 128 entries that agrees with row `r` of `y` has `y`'s log-softmax there. -/
theorem lsm_of_row (B : Fin 128 → EReal) (y : N128.Idx → EReal) (r : Fin 50000) (hB : ∀ l, B l = y (ix2 r l)) (q : Fin 128) :
    B q - (rowMax B + Ideal.log (∑ l : Fin 128, Ideal.exp (B l - rowMax B))) = lsmKAt y r q := by
  obtain rfl : B = fun l => y (ix2 r l) := funext hB
  rfl

/-- WHAT POINT `t` WRITES BACK is block `t` of the log-softmax of the affine map of the arrays the region finds. -/
theorem written_back_eq (c : Dev nD) (t : Fin cfg1.N) :
    (dat1 (F := Ideal) V c).flushed 5 t = ((cfg1.win 5).blk t).view.read (Elt Ideal)
      (lsmK (linK2 (V c main_v24) (V c main_v36) (V c main_v37) (V c main_v38) (V c main_v39))) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S256x128) zero_offsets, View.ld_unit_zero (S := S1x128) zero_offsets]
  funext j
  obtain ⟨p, q, rfl⟩ : ∃ (p : Fin 2000) (q : Fin 128), j = ix2 p q := ⟨j 0, j 1, eq_ix2 j⟩
  have hN : cfg1.N = 25 := N_1
  have ht : t.val < 25 := hN ▸ t.isLt
  have hp : p.val < 2000 := p.isLt
  obtain ⟨-, -, -, -, -, -, -, -, -, -, e0, e1⟩ := block_indices t
  show k1_pay1 (F := Ideal) (iblk1 V c 0 t) (iblk1 V c 1 t) (iblk1 V c 2 t) (iblk1 V c 3 t) (iblk1 V c 4 t) (ix2 p q)
    = lsmK (linK2 (V c main_v24) (V c main_v36) (V c main_v37) (V c main_v38) (V c main_v39)) (((cfg1.win 5).blk t).view.emb (ix2 p q))
  refine (pay1_apply (iblk1 V c 0 t) (iblk1 V c 1 t) (iblk1 V c 2 t) (iblk1 V c 3 t) (iblk1 V c 4 t) p q).trans ?_
  refine (lsm_of_row _ (linK2 (V c main_v24) (V c main_v36) (V c main_v37) (V c main_v38) (V c main_v39))
    ⟨t.val * 2000 + p.val, by omega⟩ (fun l => lin_blocks V c t p ⟨t.val * 2000 + p.val, by omega⟩ rfl l) q).trans ?_
  show lsmKAt _ _ _ = lsmKAt _ ((((cfg1.win 5).blk t).view.emb (ix2 p q)) 0) ((((cfg1.win 5).blk t).view.emb (ix2 p q)) 1)
  refine congrArg₂ (lsmKAt _) (Fin.ext ?_) (Fin.ext ?_)
  · show t.val * 2000 + p.val = win1_5.index t (0 : Fin 2) * 2000 + 1 * p.val; omega
  · show q.val = win1_5.index t (1 : Fin 2) * 128 + 1 * q.val; omega

/-- An index of the array is in point `t`'s block iff each coordinate is in the block's range on its axis. -/
theorem mem_out_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v40).slice (win1_5.rect t)).set ↔ _
  rw [View.set_slice_whole, Rect.mem_set_unit]
  exact Iff.rfl

/-- Every index of the array is in some point's block: row `r` is in block `r / 2000`. -/
theorem rows_covered (i : S50000x128.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  refine ⟨⟨(i 0).val / 2000, by rw [hN]; omega⟩, flush1_5 _, ?_⟩
  obtain ⟨-, -, -, -, -, -, -, -, -, -, e0, e1⟩ := block_indices ⟨(i 0).val / 2000, by rw [hN]; omega⟩
  rw [mem_out_block]
  intro a
  match a with
  | ⟨0, _⟩ =>
    show win1_5.index ⟨(i 0).val / 2000, _⟩ (0 : Fin 2) * 2000 ≤ (i 0).val ∧ (i 0).val < win1_5.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, _⟩ (1 : Fin 2) * 128 ≤ (i 1).val ∧ (i 1).val < win1_5.index ⟨(i 0).val / 2000, _⟩ (1 : Fin 2) * 128 + 128
    rw [e1]; omega

/-- THE ARRAY after region 1: lsmK of the arrays the region finds, whatever they hold. -/
theorem arr1_eq (c : Dev nD) :
    (dat1 (F := Ideal) V c).arrAt 5 cfg1.N = lsmK (linK2 (V c main_v24) (V c main_v36) (V c main_v37) (V c main_v38) (V c main_v39)) :=
  (dat1 (F := Ideal) V c).arrAt_eq_of_cover 5 _ (fun t _ => written_back_eq V c t) rows_covered

end Cert.Sage.K1

end
-- ==== Proof.LibFinite.lean ====
/-
  Real numbers among the extended reals, and the operations that keep them.

  An extended real is REAL when it is neither infinity. Sums, products, negations, differences, maxima and minima
  of reals are real, and a finite sum of reals is real. The quotient of a real by a nonzero real is the product
  with the reciprocal, a real. Reading a table at an index (a broadcast, a gather) returns an entry of the table,
  so a table of reals stays one; an accumulating scatter adds to each entry a finite sum of update entries, so it
  keeps reals real.
-/
import Idealize.ShloMosaic.PureOps.Ideal
import Idealize.ShloMosaic.PureOps.ShapeOps
import Idealize.ShloMosaic.PureOps.Contract
import Idealize.ShloMosaic.Lib.IdealHost

noncomputable section

namespace Cert.Sage

open Idealize.ShloMosaic

/-- An extended real that is a real number: neither infinity. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal (0 : EReal) := ⟨0, rfl⟩

/-- The image of a real number is real. -/
theorem IsReal.coe (r : ℝ) : IsReal (r : EReal) := ⟨r, rfl⟩

/-- One is real. -/
theorem IsReal.one : IsReal (1 : EReal) := ⟨1, rfl⟩

/-- A real is not plus infinity. -/
theorem IsReal.ne_top {x : EReal} (hx : IsReal x) : x ≠ ⊤ := by
  obtain ⟨a, rfl⟩ := hx; exact EReal.coe_ne_top a

/-- A real is not minus infinity. -/
theorem IsReal.ne_bot {x : EReal} (hx : IsReal x) : x ≠ ⊥ := by
  obtain ⟨a, rfl⟩ := hx; exact EReal.coe_ne_bot a

/-- An extended real that is neither infinity is real. -/
theorem IsReal.of_ne {x : EReal} (ht : x ≠ ⊤) (hb : x ≠ ⊥) : IsReal x :=
  ⟨x.toReal, (EReal.coe_toReal ht hb).symm⟩

/-- The negation of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The larger of two reals is one of them, so real. -/
theorem IsReal.max {x y : EReal} (hx : IsReal x) (hy : IsReal y) : IsReal (max x y) := by
  rcases max_choice x y with h | h <;> rw [h] <;> assumption

/-- The smaller of two reals is one of them, so real. -/
theorem IsReal.min {x y : EReal} (hx : IsReal x) (hy : IsReal y) : IsReal (min x y) := by
  rcases min_choice x y with h | h <;> rw [h] <;> assumption

/-- A finite sum of reals is real. -/
theorem IsReal.sum {ι : Type} (s : Finset ι) (f : ι → EReal) (hf : ∀ i ∈ s, IsReal (f i)) : IsReal (∑ i ∈ s, f i) :=
  Finset.sum_induction f IsReal (fun _ _ ha hb => ha.add hb) IsReal.zero hf

/-- The quotient of a real by a nonzero real is real: it is the product with the reciprocal. -/
theorem IsReal.div {x y : EReal} (hx : IsReal x) (hy : IsReal y) (h0 : y ≠ 0) : IsReal (Ideal.div x y) := by
  obtain ⟨b, rfl⟩ := hy
  have hb : b ≠ 0 := fun h => h0 (by rw [h]; rfl)
  rw [Ideal.div_coe hb]
  exact hx.mul (IsReal.coe _)

/-- A quotient whose divisor is the larger of a real and one is real: that divisor is a real at least one. -/
theorem isReal_div_max_one {x y : EReal} (hx : IsReal x) (hy : IsReal y) : IsReal (Ideal.div x (max y 1)) :=
  hx.div (hy.max IsReal.one) (ne_of_gt (lt_of_lt_of_le zero_lt_one (le_max_right y 1)))

/-- A broadcast reads its operand at some index, so a broadcast of reals is real. -/
theorem isReal_broadcastInDim {s : Shape} (t : Shape) (dims : Fin s.rank → Fin t.rank) (h : s.BroadcastsInDim t dims)
    (x : s.Idx → EReal) (hx : ∀ i, IsReal (x i)) (j : t.Idx) : IsReal (broadcastInDim t dims h x j) :=
  hx _

/-- A gathered entry is an entry of the table, so a gather from a table of reals is real. -/
theorem isReal_gather {s si t : Shape} {w : Nat} (d : GatherDims s si t) (x : s.Idx → EReal) (idx : IVec si w)
    (hx : ∀ i, IsReal (x i)) (j : t.Idx) : IsReal (Host.gather d x idx j) :=
  hx _

/-- An accumulating scatter's entry is the operand's entry plus a finite sum of update entries: real when the operand
    and the updates are. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (IsReal.sum _ _ fun j _ => hu j)

/-- The same of the host's scatter-add at the extended reals, which is that exact sum. -/
theorem isReal_scatterAdd {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) :=
  isReal_hostScatterAdd d x idx upd hx hu i

/-- An entrywise product of reals is real. -/
theorem isReal_mulf {s : Shape} {φ : FTy} (a b : FVec Ideal s φ) (i : s.Idx) (ha : IsReal (a i)) (hb : IsReal (b i)) :
    IsReal (mulf a b i) :=
  ha.mul hb

/-- An entrywise maximum of reals is real. -/
theorem isReal_maximumf {s : Shape} {φ : FTy} (a b : FVec Ideal s φ) (i : s.Idx) (ha : IsReal (a i))
    (hb : IsReal (b i)) : IsReal (maximumf a b i) :=
  ha.max hb

/-- The host's entrywise quotient of a real by a nonzero real is real. -/
theorem isReal_hostDivf {s : Shape} {φ : FTy} (a b : FVec Ideal s φ) (i : s.Idx) (ha : IsReal (a i))
    (hb : IsReal (b i)) (h0 : b i ≠ 0) : IsReal (Host.divf a b i) :=
  ha.div hb h0

/-- An entrywise maximum with an entry equal to one is at least one, so it is not zero. -/
theorem maximumf_ne_zero_of_right_eq_one {s : Shape} {φ : FTy} (a b : FVec Ideal s φ) (i : s.Idx) (hb : b i = 1) :
    maximumf a b i ≠ 0 := by
  have h : (1 : EReal) ≤ max (a i) (b i) := hb ▸ le_max_right (a i) (b i)
  exact ne_of_gt (lt_of_lt_of_le zero_lt_one h)

/-- The single-precision constant with the bit pattern of one is one at every index. -/
theorem constant_one_f32_apply (s : Shape) (i : s.Idx) : constant (F := Ideal) s .f32 0x3F800000#32 i = 1 :=
  Ideal.ofBits_one_f32

/-- The single-precision constant with the all-zero bit pattern is zero at every index. -/
theorem constant_zero_f32_apply (s : Shape) (i : s.Idx) : constant (F := Ideal) s .f32 0x00000000#32 i = 0 :=
  Ideal.ofBits_zero_f32

/-- The constant one is real. -/
theorem isReal_constant_one_f32 (s : Shape) (i : s.Idx) : IsReal (constant (F := Ideal) s .f32 0x3F800000#32 i) := by
  rw [constant_one_f32_apply]; exact IsReal.one

/-- The constant zero is real. -/
theorem isReal_constant_zero_f32 (s : Shape) (i : s.Idx) : IsReal (constant (F := Ideal) s .f32 0x00000000#32 i) := by
  rw [constant_zero_f32_apply]; exact IsReal.zero

/-- A broadcast of the constant one is one at every index. -/
theorem broadcastInDim_constant_one_f32 {s : Shape} (t : Shape) (dims : Fin s.rank → Fin t.rank)
    (h : s.BroadcastsInDim t dims) (j : t.Idx) :
    broadcastInDim t dims h (constant (F := Ideal) s .f32 0x3F800000#32) j = 1 :=
  constant_one_f32_apply s _

end Cert.Sage

end
-- ==== Proof.HostTerms.lean ====
/-
  Mean pooling over a graph's edges, as the host computes it before each layer.

  A node's degree is the number of edges ending in it (a scatter-add of ones onto zeros), `invDeg = 1 / max(deg, 1)`,
  and the pooled features of node `v` are `invDeg v · Σ_{dst e = v} h[src e]`: a gather of the rows named by `src`,
  a scatter-add onto the rows named by `dst`, a product with the broadcast `invDeg`. These stages keep finite features
  finite: a gathered entry is an entry of the table, a scatter-added entry is a zero plus a finite sum of updates, and
  `max(deg, 1)` is a real number at least `1`, so its reciprocal is real.
-/
import proofs.«160203_j28913719837490_1_alg».proof.Proof.Gen.KernelIdeal
import proofs.«160203_j28913719837490_1_alg».proof.Proof.Spec
import proofs.«160203_j28913719837490_1_alg».proof.Proof.LibFinite

noncomputable section

namespace Cert.Sage

open Idealize.ShloMosaic Idealize.ShloMosaic.ValueIdx Cert.KernelIdeal Cert.KernelIdeal.Gen

/-- The source indices as the gather takes them: a negative index counted from the end, one index per row. -/
def srcIdx (x1 : IVec S800000 32) : IVec S800000x1 32 :=
  broadcastInDim S800000x1 ![0] bcast_S800000_S800000x1_0 (select (cmpi .slt x1 (broadcastInDim S800000 ![] bcast_S_S800000 (constantI S_ 32 0#32))) (addi x1 (broadcastInDim S800000 ![] bcast_S_S800000 (constantI S_ 32 50000#32))) x1)

/-- `1 / max(deg, 1)` as a column, `deg` the scatter-add of ones onto the destination nodes. -/
def invDeg (x2 : IVec S800000 32) : FVec Ideal S50000x1 .f32 :=
  broadcastInDim S50000x1 ![0] bcast_S50000_S50000x1_0 (Host.divf (F := Ideal) (broadcastInDim S50000 ![] bcast_S_S50000 (constant S_ .f32 0x3F800000#32)) (maximumf (Host.scatterAdd scatter_S50000_S800000x1_S800000_n_0_0_1 (broadcastInDim S50000 ![] bcast_S_S50000 (constant S_ .f32 0x00000000#32)) (broadcastInDim S800000x1 ![0] bcast_S800000_S800000x1_0 x2) (broadcastInDim S800000 ![] bcast_S_S800000 (constant S_ .f32 0x3F800000#32))) (broadcastInDim S50000 ![] bcast_S_S50000 (constant S_ .f32 0x3F800000#32))))

/-- The pooled neighbour features of 128-wide node features. -/
def agg1 (h : FVec Ideal S50000x128 .f32) (x1 x2 : IVec S800000 32) :
    FVec Ideal S50000x128 .f32 :=
  mulf (F := Ideal) (Host.scatterAdd scatter_S50000x128_S800000x1_S800000x128_1_0_0_1 (broadcastInDim S50000x128 ![] bcast_S_S50000x128 (constant S_ .f32 0x00000000#32)) (broadcastInDim S800000x1 ![0] bcast_S800000_S800000x1_0 x2) (Host.gather gather_S50000x128_S800000x1_S800000x128_1_0_n_n_0_1_1128 h (srcIdx x1))) (broadcastInDim S50000x128 ![0, 1] bcast_S50000x1_S50000x128_0_1 (invDeg x2))

/-- The pooled neighbour features of 256-wide node features. -/
def agg2 (h : FVec Ideal S50000x256 .f32) (x1 x2 : IVec S800000 32) :
    FVec Ideal S50000x256 .f32 :=
  mulf (F := Ideal) (Host.scatterAdd scatter_S50000x256_S800000x1_S800000x256_1_0_0_1 (broadcastInDim S50000x256 ![] bcast_S_S50000x256 (constant S_ .f32 0x00000000#32)) (broadcastInDim S800000x1 ![0] bcast_S800000_S800000x1_0 x2) (Host.gather gather_S50000x256_S800000x1_S800000x256_1_0_n_n_0_1_1256 h (srcIdx x1))) (broadcastInDim S50000x256 ![0, 1] bcast_S50000x1_S50000x256_0_1 (invDeg x2))

/-- Every reciprocal degree is a real number. -/
theorem invDeg_real (x2 : IVec S800000 32) (i : S50000x1.Idx) : IsReal (invDeg x2 i) := by
  unfold invDeg
  apply isReal_broadcastInDim
  intro j
  apply isReal_hostDivf
  · exact isReal_broadcastInDim _ _ _ _ (isReal_constant_one_f32 _) _
  · apply isReal_maximumf
    · apply isReal_scatterAdd
      · exact fun k => isReal_broadcastInDim _ _ _ _ (isReal_constant_zero_f32 _) k
      · exact fun k => isReal_broadcastInDim _ _ _ _ (isReal_constant_one_f32 _) k
    · exact isReal_broadcastInDim _ _ _ _ (isReal_constant_one_f32 _) _
  · exact maximumf_ne_zero_of_right_eq_one _ _ _ (broadcastInDim_constant_one_f32 _ _ _ _)

/-- Pooling keeps finite features finite. -/
theorem agg1_real (h : FVec Ideal S50000x128 .f32) (x1 x2 : IVec S800000 32)
    (hh : ∀ i, IsReal (h i)) (i : S50000x128.Idx) : IsReal (agg1 h x1 x2 i) := by
  unfold agg1
  apply isReal_mulf
  · apply isReal_scatterAdd
    · exact fun k => isReal_broadcastInDim _ _ _ _ (isReal_constant_zero_f32 _) k
    · exact fun k => isReal_gather _ _ _ hh k
  · exact isReal_broadcastInDim _ _ _ _ (invDeg_real x2) _

theorem agg2_real (h : FVec Ideal S50000x256 .f32) (x1 x2 : IVec S800000 32)
    (hh : ∀ i, IsReal (h i)) (i : S50000x256.Idx) : IsReal (agg2 h x1 x2 i) := by
  unfold agg2
  apply isReal_mulf
  · apply isReal_scatterAdd
    · exact fun k => isReal_broadcastInDim _ _ _ _ (isReal_constant_zero_f32 _) k
    · exact fun k => isReal_gather _ _ _ hh k
  · exact isReal_broadcastInDim _ _ _ _ (invDeg_real x2) _

end Cert.Sage

end
-- ==== Proof.Algebra.lean ====
/-
  Finiteness of the layers, and the two arrangements of the log-softmax.

  The larger of two reals is one of them, so the rectifier keeps reals; an affine layer's entry is two finite sums of
  products of reals plus a real. A fold of `max` from `-∞` over a nonempty finite family of reals is real: the first
  insertion returns that entry, each later one the larger of two reals. For real `y`, `M` and ANY extended real `L`,
  `y − (M + L) = (y − M) − L`: both sides are `+∞` at `L = -∞`, `-∞` at `L = +∞`, and the same real otherwise.
-/
import proofs.«160203_j28913719837490_1_alg».proof.Proof.Spec
import proofs.«160203_j28913719837490_1_alg».proof.Proof.LibFinite

noncomputable section

namespace Cert.Sage

open Idealize.ShloMosaic Idealize.ShloMosaic.ValueIdx

/-- The larger of two reals is real: it is one of the two. -/
theorem isReal_max_of_isReal {x y : EReal} (hx : IsReal x) (hy : IsReal y) : IsReal (max x y) := by
  rcases max_choice x y with h | h <;> rw [h] <;> assumption

/-- A fold of `max` from `-∞` over a finite family of reals is real unless the family is empty. -/
theorem foldMax_empty_or_isReal {ι : Type} [DecidableEq ι] (f : ι → EReal) (hf : ∀ i, IsReal (f i)) (s : Finset ι) :
    s = ∅ ∨ IsReal (s.fold max ⊥ f) := by
  induction s using Finset.induction_on with
  | empty => exact Or.inl rfl
  | insert a s ha ih =>
    right
    rw [Finset.fold_insert ha]
    rcases ih with rfl | h
    · rw [Finset.fold_empty, max_bot_right]; exact hf a
    · exact isReal_max_of_isReal (hf a) h

/-- The maximum of a row of 128 reals is real. -/
theorem rowMax_real (f : Fin 128 → EReal) (hf : ∀ i, IsReal (f i)) : IsReal (rowMax f) := by
  rcases foldMax_empty_or_isReal f hf Finset.univ with h | h
  · exact absurd h Finset.univ_nonempty.ne_empty
  · exact h

/-- Subtracting `M + L` is subtracting `M` and then `L`, when `M` is real; `L` may be infinite. -/
theorem real_sub_real_add (y M : ℝ) (L : EReal) :
    (y : EReal) - ((M : EReal) + L) = ((y : EReal) - (M : EReal)) - L := by
  induction L using EReal.rec with
  | bot => rw [← EReal.coe_sub, EReal.add_bot, EReal.coe_sub_bot, EReal.coe_sub_bot]
  | coe L => norm_cast; ring
  | top => rw [EReal.coe_add_top, EReal.sub_top, EReal.sub_top]

theorem relu_real {s : Shape} (y : s.Idx → EReal) (hy : ∀ i, IsReal (y i)) (i : s.Idx) : IsReal (relu y i) :=
  isReal_max_of_isReal (hy i) IsReal.zero

theorem lin1_real (h a : N128.Idx → EReal) (W : (⟨2, ![256, 256]⟩ : Shape).Idx → EReal) (b : (⟨1, ![256]⟩ : Shape).Idx → EReal)
    (hh : ∀ i, IsReal (h i)) (ha : ∀ i, IsReal (a i)) (hW : ∀ i, IsReal (W i)) (hb : ∀ i, IsReal (b i)) (i : N256.Idx) :
    IsReal (lin1 h a W b i) := by
  unfold lin1 lin1At
  exact IsReal.add (IsReal.add (IsReal.sum _ _ (fun k _ => IsReal.mul (hh _) (hW _)))
    (IsReal.sum _ _ (fun k _ => IsReal.mul (ha _) (hW _)))) (hb _)

theorem lin2_real (h a : N256.Idx → EReal) (W : (⟨2, ![512, 128]⟩ : Shape).Idx → EReal) (b : (⟨1, ![128]⟩ : Shape).Idx → EReal)
    (hh : ∀ i, IsReal (h i)) (ha : ∀ i, IsReal (a i)) (hW : ∀ i, IsReal (W i)) (hb : ∀ i, IsReal (b i)) (i : N128.Idx) :
    IsReal (lin2 h a W b i) := by
  unfold lin2 lin2At
  exact IsReal.add (IsReal.add (IsReal.sum _ _ (fun k _ => IsReal.mul (hh _) (hW _)))
    (IsReal.sum _ _ (fun k _ => IsReal.mul (ha _) (hW _)))) (hb _)

/-- On rows of real numbers the two arrangements of the log-softmax agree. -/
theorem lsmK_eq_lsmR (y : N128.Idx → EReal) (hy : ∀ i, IsReal (y i)) : lsmK y = lsmR y := by
  funext i
  unfold lsmK lsmKAt lsmR lsmRAt
  obtain ⟨m, hm⟩ := rowMax_real (fun l => y (ix2 (i 0) l)) (fun l => hy _)
  obtain ⟨v, hv⟩ := hy (ix2 (i 0) (i 1))
  rw [hm, hv]
  exact real_sub_real_add v m _

end Cert.Sage

end
-- ==== Proof.Model.lean ====
/-
  The whole network as one function of its seven arguments, and why its two arrangements agree.

  `hidden` is the rectified first layer of the node features and their pooled neighbours; the result is the log-softmax
  of the second layer of `hidden` and ITS pooled neighbours. With real features, weights and biases every stage stays
  real: pooling keeps reals real, an affine map of reals is real, and so is a rectified real. So each row the
  log-softmax sees is a row of real numbers, its maximum is real, and `y − (M + L) = (y − M) − L`.
-/
import proofs.«160203_j28913719837490_1_alg».proof.Proof.HostTerms
import proofs.«160203_j28913719837490_1_alg».proof.Proof.Algebra

noncomputable section

namespace Cert.Sage

open Idealize.ShloMosaic Idealize.ShloMosaic.ValueIdx Cert.KernelIdeal

/-- The first layer's output: `max([x ‖ pool x] · W1 + b1, 0)`. -/
def hidden (x0 : FVec Ideal S50000x128 .f32) (x1 x2 : IVec S800000 32) (x3 : FVec Ideal S256x256 .f32) (x4 : FVec Ideal S256 .f32) :
    FVec Ideal S50000x256 .f32 :=
  relu (lin1 x0 (agg1 x0 x1 x2) x3 x4)

/-- The second layer's affine map of the hidden features and their pooled neighbours. -/
def logits (x0 : FVec Ideal S50000x128 .f32) (x1 x2 : IVec S800000 32) (x3 : FVec Ideal S256x256 .f32) (x4 : FVec Ideal S256 .f32)
    (x5 : FVec Ideal S512x128 .f32) (x6 : FVec Ideal S128 .f32) : FVec Ideal S50000x128 .f32 :=
  lin2 (hidden x0 x1 x2 x3 x4) (agg2 (hidden x0 x1 x2 x3 x4) x1 x2) x5 x6

theorem hidden_real (x0 : FVec Ideal S50000x128 .f32) (x1 x2 : IVec S800000 32) (x3 : FVec Ideal S256x256 .f32) (x4 : FVec Ideal S256 .f32)
    (h0 : ∀ i, IsReal (x0 i)) (h3 : ∀ i, IsReal (x3 i)) (h4 : ∀ i, IsReal (x4 i)) (i : S50000x256.Idx) :
    IsReal (hidden x0 x1 x2 x3 x4 i) :=
  relu_real _ (fun j => lin1_real x0 (agg1 x0 x1 x2) x3 x4 h0 (fun k => agg1_real x0 x1 x2 h0 k) h3 h4 j) i

theorem logits_real (x0 : FVec Ideal S50000x128 .f32) (x1 x2 : IVec S800000 32) (x3 : FVec Ideal S256x256 .f32) (x4 : FVec Ideal S256 .f32)
    (x5 : FVec Ideal S512x128 .f32) (x6 : FVec Ideal S128 .f32)
    (h0 : ∀ i, IsReal (x0 i)) (h3 : ∀ i, IsReal (x3 i)) (h4 : ∀ i, IsReal (x4 i)) (h5 : ∀ i, IsReal (x5 i)) (h6 : ∀ i, IsReal (x6 i))
    (i : S50000x128.Idx) : IsReal (logits x0 x1 x2 x3 x4 x5 x6 i) :=
  lin2_real _ _ x5 x6 (fun j => hidden_real x0 x1 x2 x3 x4 h0 h3 h4 j)
    (fun j => agg2_real _ x1 x2 (fun k => hidden_real x0 x1 x2 x3 x4 h0 h3 h4 k) j) h5 h6 i

/-- On real inputs the two arrangements of the final log-softmax give one array. -/
theorem model_eq (x0 : FVec Ideal S50000x128 .f32) (x1 x2 : IVec S800000 32) (x3 : FVec Ideal S256x256 .f32) (x4 : FVec Ideal S256 .f32)
    (x5 : FVec Ideal S512x128 .f32) (x6 : FVec Ideal S128 .f32)
    (h0 : ∀ i, IsReal (x0 i)) (h3 : ∀ i, IsReal (x3 i)) (h4 : ∀ i, IsReal (x4 i)) (h5 : ∀ i, IsReal (x5 i)) (h6 : ∀ i, IsReal (x6 i)) :
    lsmK (logits x0 x1 x2 x3 x4 x5 x6) = lsmR (logits x0 x1 x2 x3 x4 x5 x6) :=
  lsmK_eq_lsmR _ (logits_real x0 x1 x2 x3 x4 x5 x6 h0 h3 h4 h5 h6)

end Cert.Sage

end
-- ==== Proof.KValue.lean ====
/-
  The kernel program's result as one function of its arguments.

  The second region's array is the log-softmax of the second layer's affine map of what it finds; what it finds is the
  first region's array (the rectified first layer), the pooled features the host computes from it between the regions,
  and the two halves of the second weight and the bias as a row. The first region finds the node features, their pooled
  features, and the halves of the first weight. A weight cut at its seam and a bias laid out as a one-row matrix
  give the same affine map as the whole weight and the bias vector: a row of the lower half IS a row of the weight.
-/
import proofs.«160203_j28913719837490_1_alg».proof.Proof.KRun
import proofs.«160203_j28913719837490_1_alg».proof.Proof.KArr0
import proofs.«160203_j28913719837490_1_alg».proof.Proof.KArr1
import proofs.«160203_j28913719837490_1_alg».proof.Proof.Model
import Idealize.ShloMosaic.Lib.StableHlo.Run
import Idealize.ShloMosaic.Lib.ValueLayout

set_option maxRecDepth 16384

noncomputable section

namespace Cert.Sage.KV

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg)

/-! ## The weight cut at its seam -/

theorem linK1_slices (h a : N128.Idx → EReal) (W : S256x256.Idx → EReal) (b : S256.Idx → EReal) :
    linK1 h a (extractStridedSlice S128x256 ![0, 0] W slices_S256x256_S128x256_0_0)
      (extractStridedSlice S128x256 ![128, 0] W slices_S256x256_S128x256_128_0) (shapeCast S1x256 b shapeCasts_S256_S1x256)
      = lin1 h a W b := by
  funext i
  unfold linK1 lin1 linK1At lin1At
  congr 1
  · congr 1
    · refine Finset.sum_congr rfl fun k _ => ?_
      rw [slice2_axis0_apply 0 W slices_S256x256_S128x256_0_0 k (i 1) ⟨k.val, by omega⟩ (by simp)]
    · refine Finset.sum_congr rfl fun k _ => ?_
      rw [slice2_axis0_apply 128 W slices_S256x256_S128x256_128_0 k (i 1) ⟨128 + k.val, by omega⟩ rfl]
  · exact shapeCast_a_1a_apply b shapeCasts_S256_S1x256 0 (i 1)

theorem linK2_slices (h a : N256.Idx → EReal) (W : S512x128.Idx → EReal) (b : S128.Idx → EReal) :
    linK2 h a (extractStridedSlice S256x128 ![0, 0] W slices_S512x128_S256x128_0_0)
      (extractStridedSlice S256x128 ![256, 0] W slices_S512x128_S256x128_256_0) (shapeCast S1x128 b shapeCasts_S128_S1x128)
      = lin2 h a W b := by
  funext i
  unfold linK2 lin2 linK2At lin2At
  congr 1
  · congr 1
    · refine Finset.sum_congr rfl fun k _ => ?_
      rw [slice2_axis0_apply 0 W slices_S512x128_S256x128_0_0 k (i 1) ⟨k.val, by omega⟩ (by simp)]
    · refine Finset.sum_congr rfl fun k _ => ?_
      rw [slice2_axis0_apply 256 W slices_S512x128_S256x128_256_0 k (i 1) ⟨256 + k.val, by omega⟩ rfl]
  · exact shapeCast_a_1a_apply b shapeCasts_S128_S1x128 0 (i 1)

/-! ## What the first region finds: the first host stretch read back -/

theorem in0_x (c : Dev nD) : V1 m ρ c main_arg0 = m ((c : Thread nD τ).loc main_arg0) := by
  show StableHlo.after hostOps0 (W0 m ρ c) (Proc.devRef .tc main_arg0) = _
  after_results_simp <;> rfl

theorem in0_a (c : Dev nD) : V1 m ρ c main_v20 = agg1 (m ((c : Thread nD τ).loc main_arg0)) (m ((c : Thread nD τ).loc main_arg1)) (m ((c : Thread nD τ).loc main_arg2)) := by
  show StableHlo.after hostOps0 (W0 m ρ c) (Proc.devRef .tc main_v20) = _
  after_results_simp <;> rfl

theorem in0_wh (c : Dev nD) : V1 m ρ c main_v21 = extractStridedSlice S128x256 ![0, 0] (m ((c : Thread nD τ).loc main_arg3)) slices_S256x256_S128x256_0_0 := by
  show StableHlo.after hostOps0 (W0 m ρ c) (Proc.devRef .tc main_v21) = _
  after_results_simp <;> rfl

theorem in0_wa (c : Dev nD) : V1 m ρ c main_v22 = extractStridedSlice S128x256 ![128, 0] (m ((c : Thread nD τ).loc main_arg3)) slices_S256x256_S128x256_128_0 := by
  show StableHlo.after hostOps0 (W0 m ρ c) (Proc.devRef .tc main_v22) = _
  after_results_simp <;> rfl

theorem in0_b (c : Dev nD) : V1 m ρ c main_v23 = shapeCast S1x256 (m ((c : Thread nD τ).loc main_arg4)) shapeCasts_S256_S1x256 := by
  show StableHlo.after hostOps0 (W0 m ρ c) (Proc.devRef .tc main_v23) = _
  after_results_simp <;> rfl

/-- The first region's array: the hidden features. -/
theorem out0 (c : Dev nD) :
    W2 m ρ c (Proc.devRef .tc main_v24) = hidden (m ((c : Thread nD τ).loc main_arg0)) (m ((c : Thread nD τ).loc main_arg1)) (m ((c : Thread nD τ).loc main_arg2)) (m ((c : Thread nD τ).loc main_arg3)) (m ((c : Thread nD τ).loc main_arg4)) := by
  show W2 m ρ c (Proc.devRef .tc (Pipeline.arrRef spec0 5)) = _
  rw [W2_arr m ρ c 5, K0.arr0_eq (V1 m ρ) c, in0_x, in0_a, in0_wh, in0_wa, in0_b, linK1_slices]
  rfl

/-! ## What the second region finds: the buffers the first region does not write, then the second host stretch -/

theorem mid_src (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp <;> rfl

theorem mid_dst (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp <;> rfl

theorem mid_w (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp <;> rfl

theorem mid_b (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

theorem mid_invDeg (c : Dev nD) : W2 m ρ c (Proc.devRef .tc main_v8) = invDeg (m ((c : Thread nD τ).loc main_arg2)) := by
  rw [W2_of_ne m ρ c main_v8 (by decide)]
  show StableHlo.after hostOps0 (W0 m ρ c) (Proc.devRef .tc main_v8) = _
  after_results_simp <;> rfl

theorem in1_h (c : Dev nD) : V3 m ρ c main_v24 = W2 m ρ c (Proc.devRef .tc main_v24) := by
  show StableHlo.after hostOps1 (W2 m ρ c) (Proc.devRef .tc main_v24) = _
  after_results_simp <;> rfl

theorem in1_a (c : Dev nD) :
    V3 m ρ c main_v36 = agg2 (W2 m ρ c (Proc.devRef .tc main_v24)) (m ((c : Thread nD τ).loc main_arg1)) (m ((c : Thread nD τ).loc main_arg2)) := by
  show StableHlo.after hostOps1 (W2 m ρ c) (Proc.devRef .tc main_v36) = _
  after_results_simp
  rw [mid_src m ρ c, mid_dst m ρ c, mid_invDeg m ρ c]
  rfl

theorem in1_wh (c : Dev nD) : V3 m ρ c main_v37 = extractStridedSlice S256x128 ![0, 0] (m ((c : Thread nD τ).loc main_arg5)) slices_S512x128_S256x128_0_0 := by
  show StableHlo.after hostOps1 (W2 m ρ c) (Proc.devRef .tc main_v37) = _
  after_results_simp
  rw [mid_w m ρ c]

theorem in1_wa (c : Dev nD) : V3 m ρ c main_v38 = extractStridedSlice S256x128 ![256, 0] (m ((c : Thread nD τ).loc main_arg5)) slices_S512x128_S256x128_256_0 := by
  show StableHlo.after hostOps1 (W2 m ρ c) (Proc.devRef .tc main_v38) = _
  after_results_simp
  rw [mid_w m ρ c]

theorem in1_b (c : Dev nD) : V3 m ρ c main_v39 = shapeCast S1x128 (m ((c : Thread nD τ).loc main_arg6)) shapeCasts_S128_S1x128 := by
  show StableHlo.after hostOps1 (W2 m ρ c) (Proc.devRef .tc main_v39) = _
  after_results_simp
  rw [mid_b m ρ c]
  rfl

/-! ## The result -/

/-- The kernel program's result array: the log-softmax, in the arrangement `y − (M + log Σ exp(y − M))`, of the second
    layer's affine map. -/
theorem kernel_value (c : Dev nD) :
    W4 m ρ c (Proc.devRef .tc main_v40)
      = lsmK (logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show W4 m ρ c (Proc.devRef .tc (Pipeline.arrRef spec1 5)) = _
  rw [W4_arr m ρ c 5, K1.arr1_eq (V3 m ρ) c, in1_h, in1_a, in1_wh, in1_wa, in1_b, linK2_slices, out0]
  rfl

/-- Every weakly fair execution of the kernel program ends with the result array at that function of the arguments,
    the arguments unchanged. -/
theorem run : θ_run defs (onTc (τ := τ) (main (F := Ideal))) ⟨m, fun _ => 0, ρ⟩ (fun r => ∀ c : Dev nD,
      r.2.mem ((c.tc : Thread nD τ).loc main_v40)
        = lsmK (logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (kernel_value m ρ c), (h c).2⟩) (run_named m ρ)

end Cert.Sage.KV

end
-- ==== Proof.RLayers.lean ====
/-
  The reference program's two layers, read index by index.

  Entry `(r, j)` of a product with one contracted axis is `∑ₖ y[r,k]·W[k,j]`. Of two arrays joined along the lanes, lanes
  `k < D` read the first and lanes `D + k` the second, so the sum over `2D` terms splits at the seam into the node's own
  part and the pooled part; the bias, spread to a row and down the rows, adds `b[j]`. A fold of `max` along the lanes from
  `-∞`, then `max(-∞, ·)`, is the row's maximum `M`; the sum along the lanes from `0` is the row's sum: the log-softmax
  is `(y − M) − log Σ exp(y − M)`.
-/
import proofs.«160203_j28913719837490_1_alg».proof.Proof.Gen.ReferenceIdeal
import proofs.«160203_j28913719837490_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.R

open Idealize.ShloMosaic Idealize.ShloMosaic.ValueIdx Cert.ReferenceIdeal Cert.ReferenceIdeal.Gen Cert.Sage

/-! ## The first layer's product -/

theorem lhs1_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem lhs1_1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem rhs1_0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem rhs1_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- Entry `(r, j)` of the first product: the sum over the joined axis of row `r` times column `j`. -/
theorem dot1_apply (y : FVec Ideal S50000x256 .f32) (W : FVec Ideal S256x256 .f32) (r : Fin 50000) (j : Fin 256) :
    Host.dotGeneral dot_S50000x256_S256x256_S50000x256_1_0_0_1_n_n none y W (ix2 r j) = ∑ k : Fin 256, y (ix2 r k) * W (ix2 k j) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx (ix2 r j) ((ValueIdx.contrEquiv1 dot_S50000x256_S256x256_S50000x256_1_0_0_1_n_n 256 rfl rfl).symm k) = ix2 r k := funext fun a => Fin.ext (by
    match a with
    | ⟨0, _⟩ => exact lhs1_0 _ _
    | ⟨1, _⟩ => exact (lhs1_1 _ _).trans hk)
  have er : dot_S50000x256_S256x256_S50000x256_1_0_0_1_n_n.rhsIdx (ix2 r j) ((ValueIdx.contrEquiv1 dot_S50000x256_S256x256_S50000x256_1_0_0_1_n_n 256 rfl rfl).symm k) = ix2 k j := funext fun a => Fin.ext (by
    match a with
    | ⟨0, _⟩ => exact (rhs1_0 _ _).trans hk
    | ⟨1, _⟩ => exact rhs1_1 _ _)
  rw [el, er]

/-- Lanes below 128 of the joined array are the first piece's. -/
theorem cat1_left (x a : FVec Ideal S50000x128 .f32) (r : Fin 50000) (k : Fin 128) :
    concatenate S50000x256 1 [⟨S50000x128, x⟩, ⟨S50000x128, a⟩] concatenates_S50000x128_S50000x128_S50000x256_d1 (ix2 r (⟨k.val, by omega⟩ : Fin 256)) = x (ix2 r k) :=
  concatenate_pair_apply_left 1 x a concatenates_S50000x128_S50000x128_S50000x256_d1 _ rfl (ix2 r k) (fun b => by
    match b with
    | ⟨0, _⟩ => rfl
    | ⟨1, _⟩ => rfl)

/-- Lanes `128 + k` of the joined array are the second piece's lanes `k`. -/
theorem cat1_right (x a : FVec Ideal S50000x128 .f32) (r : Fin 50000) (k : Fin 128) :
    concatenate S50000x256 1 [⟨S50000x128, x⟩, ⟨S50000x128, a⟩] concatenates_S50000x128_S50000x128_S50000x256_d1 (ix2 r (⟨128 + k.val, by omega⟩ : Fin 256)) = a (ix2 r k) :=
  concatenate_pair_apply_right 1 x a concatenates_S50000x128_S50000x128_S50000x256_d1 _ rfl rfl (ix2 r k) (fun b hb => by
    match b, hb with
    | ⟨0, _⟩, _ => rfl
    | ⟨1, _⟩, hb => exact absurd rfl hb) (by show k.val + 128 = 128 + k.val; omega)

/-- A sum over 256 terms is the sum of its first 128 and its last 128. -/
theorem sum_split_256 {M : Type} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

/-- The bias, spread to one row and then down the rows, reads its entry `j` everywhere in column `j`. -/
theorem bias1_apply (b : FVec Ideal S256 .f32) (r : Fin 50000) (j : Fin 256) :
    broadcastInDim S50000x256 ![0, 1] bcast_S1x256_S50000x256_0_1 (broadcastInDim S1x256 ![1] bcast_S256_S1x256_1 b) (ix2 r j) = b (ix1 j) :=
  (broadcastInDim_apply _ bcast_S1x256_S50000x256_0_1 _ (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])).trans
  (broadcastInDim_apply _ bcast_S256_S1x256_1 b (ix2 (0 : Fin 1) j) (ix1 j) (fun a => match a with
    | ⟨0, _⟩ => by show j.val = if (256 : Nat) = 1 then 0 else j.val; rw [if_neg (by decide)]))

/-- The spread zero constant is `0` at every entry. -/
theorem zero256_apply (i : S50000x256.Idx) :
    broadcastInDim S50000x256 ![] bcast_S_S50000x256 (constant (F := Ideal) S_ .f32 0x00000000#32) i = (0 : EReal) := by
  rw [broadcastInDim_apply _ bcast_S_S50000x256 _ i ix0 (fun a => a.elim0), constant_apply, Ideal.ofBits_zero_f32]

/-- The first layer as the reference computes it: features and pooled features joined along the lanes, one product with the
    whole weight, the bias spread over the rows, the rectifier. -/
theorem layer1 (x a : FVec Ideal S50000x128 .f32) (W : FVec Ideal S256x256 .f32) (b : FVec Ideal S256 .f32) :
    maximumf (F := Ideal) (addf (Host.dotGeneral dot_S50000x256_S256x256_S50000x256_1_0_0_1_n_n none (concatenate S50000x256 1 [⟨S50000x128, x⟩, ⟨S50000x128, a⟩] concatenates_S50000x128_S50000x128_S50000x256_d1) W) (broadcastInDim S50000x256 ![0, 1] bcast_S1x256_S50000x256_0_1 (broadcastInDim S1x256 ![1] bcast_S256_S1x256_1 b))) (broadcastInDim S50000x256 ![] bcast_S_S50000x256 (constant S_ .f32 0x00000000#32))
      = relu (lin1 x a W b) := by
  funext i
  obtain ⟨r, j, rfl⟩ : ∃ (r : Fin 50000) (j : Fin 256), i = ix2 r j := ⟨i 0, i 1, eq_ix2 i⟩
  rw [maximumf_apply, addf_apply, dot1_apply, bias1_apply, zero256_apply, sum_split_256]
  simp only [cat1_left, cat1_right]
  rfl

/-! ## The second layer's product -/

theorem lhs2_0 (i : S50000x128.Idx) (q : dot_S50000x512_S512x128_S50000x128_1_0_0_1_n_n.contr.Idx) :
    (dot_S50000x512_S512x128_S50000x128_1_0_0_1_n_n.lhsIdx i q 0).val = (i 0).val := by
  unfold DotDims.lhsIdx
  rw [dif_neg (show ¬(0 : Fin S50000x512.rank) ∈ dot_S50000x512_S512x128_S50000x128_1_0_0_1_n_n.lhsBatch by decide), dif_pos (show (0 : Fin S50000x512.rank) ∈ dot_S50000x512_S512x128_S50000x128_1_0_0_1_n_n.lhsNonContracting by decide)]
  rfl
theorem lhs2_1 (i : S50000x128.Idx) (q : dot_S50000x512_S512x128_S50000x128_1_0_0_1_n_n.contr.Idx) :
    (dot_S50000x512_S512x128_S50000x128_1_0_0_1_n_n.lhsIdx i q 1).val = (q ⟨0, by decide⟩).val :=
  dot_S50000x512_S512x128_S50000x128_1_0_0_1_n_n.lhsIdx_val_of_single rfl i q
theorem rhs2_0 (i : S50000x128.Idx) (q : dot_S50000x512_S512x128_S50000x128_1_0_0_1_n_n.contr.Idx) :
    (dot_S50000x512_S512x128_S50000x128_1_0_0_1_n_n.rhsIdx i q 0).val = (q ⟨0, by decide⟩).val :=
  dot_S50000x512_S512x128_S50000x128_1_0_0_1_n_n.rhsIdx_val_of_single rfl i q
theorem rhs2_1 (i : S50000x128.Idx) (q : dot_S50000x512_S512x128_S50000x128_1_0_0_1_n_n.contr.Idx) :
    (dot_S50000x512_S512x128_S50000x128_1_0_0_1_n_n.rhsIdx i q 1).val = (i 1).val := by
  unfold DotDims.rhsIdx
  rw [dif_neg (show ¬(1 : Fin S512x128.rank) ∈ dot_S50000x512_S512x128_S50000x128_1_0_0_1_n_n.rhsBatch by decide), dif_pos (show (1 : Fin S512x128.rank) ∈ dot_S50000x512_S512x128_S50000x128_1_0_0_1_n_n.rhsNonContracting by decide)]
  rfl

/-- Entry `(r, j)` of the second product: the sum over the joined axis of row `r` times column `j`. -/
theorem dot2_apply (y : FVec Ideal S50000x512 .f32) (W : FVec Ideal S512x128 .f32) (r : Fin 50000) (j : Fin 128) :
    Host.dotGeneral dot_S50000x512_S512x128_S50000x128_1_0_0_1_n_n none y W (ix2 r j) = ∑ k : Fin 512, y (ix2 r k) * W (ix2 k j) := by
  simp only [Host.dotGeneral]
  rw [Ideal.dotGeneral_apply, ← Equiv.sum_comp (ValueIdx.contrEquiv1 dot_S50000x512_S512x128_S50000x128_1_0_0_1_n_n 512 rfl rfl).symm]
  refine Finset.sum_congr rfl fun k _ => ?_
  have hk := ValueIdx.contrEquiv1_symm_val dot_S50000x512_S512x128_S50000x128_1_0_0_1_n_n 512 rfl rfl k
  have el : dot_S50000x512_S512x128_S50000x128_1_0_0_1_n_n.lhsIdx (ix2 r j) ((ValueIdx.contrEquiv1 dot_S50000x512_S512x128_S50000x128_1_0_0_1_n_n 512 rfl rfl).symm k) = ix2 r k := funext fun a => Fin.ext (by
    match a with
    | ⟨0, _⟩ => exact lhs2_0 _ _
    | ⟨1, _⟩ => exact (lhs2_1 _ _).trans hk)
  have er : dot_S50000x512_S512x128_S50000x128_1_0_0_1_n_n.rhsIdx (ix2 r j) ((ValueIdx.contrEquiv1 dot_S50000x512_S512x128_S50000x128_1_0_0_1_n_n 512 rfl rfl).symm k) = ix2 k j := funext fun a => Fin.ext (by
    match a with
    | ⟨0, _⟩ => exact (rhs2_0 _ _).trans hk
    | ⟨1, _⟩ => exact rhs2_1 _ _)
  rw [el, er]

/-- Lanes below 256 of the joined array are the first piece's. -/
theorem cat2_left (h a : FVec Ideal S50000x256 .f32) (r : Fin 50000) (k : Fin 256) :
    concatenate S50000x512 1 [⟨S50000x256, h⟩, ⟨S50000x256, a⟩] concatenates_S50000x256_S50000x256_S50000x512_d1 (ix2 r (⟨k.val, by omega⟩ : Fin 512)) = h (ix2 r k) :=
  concatenate_pair_apply_left 1 h a concatenates_S50000x256_S50000x256_S50000x512_d1 _ rfl (ix2 r k) (fun b => by
    match b with
    | ⟨0, _⟩ => rfl
    | ⟨1, _⟩ => rfl)

/-- Lanes `256 + k` of the joined array are the second piece's lanes `k`. -/
theorem cat2_right (h a : FVec Ideal S50000x256 .f32) (r : Fin 50000) (k : Fin 256) :
    concatenate S50000x512 1 [⟨S50000x256, h⟩, ⟨S50000x256, a⟩] concatenates_S50000x256_S50000x256_S50000x512_d1 (ix2 r (⟨256 + k.val, by omega⟩ : Fin 512)) = a (ix2 r k) :=
  concatenate_pair_apply_right 1 h a concatenates_S50000x256_S50000x256_S50000x512_d1 _ rfl rfl (ix2 r k) (fun b hb => by
    match b, hb with
    | ⟨0, _⟩, _ => rfl
    | ⟨1, _⟩, hb => exact absurd rfl hb) (by show k.val + 256 = 256 + k.val; omega)

/-- A sum over 512 terms is the sum of its first 256 and its last 256. -/
theorem sum_split_512 {M : Type} [AddCommMonoid M] (f : Fin 512 → M) :
    ∑ k : Fin 512, f k = (∑ k : Fin 256, f ⟨k.val, by omega⟩) + ∑ k : Fin 256, f ⟨256 + k.val, by omega⟩ :=
  Fin.sum_univ_add (a := 256) (b := 256) f

/-- The bias, spread to one row and then down the rows, reads its entry `j` everywhere in column `j`. -/
theorem bias2_apply (b : FVec Ideal S128 .f32) (r : Fin 50000) (j : Fin 128) :
    broadcastInDim S50000x128 ![0, 1] bcast_S1x128_S50000x128_0_1 (broadcastInDim S1x128 ![1] bcast_S128_S1x128_1 b) (ix2 r j) = b (ix1 j) :=
  (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans
  (broadcastInDim_apply _ bcast_S128_S1x128_1 b (ix2 (0 : Fin 1) j) (ix1 j) (fun a => match a with
    | ⟨0, _⟩ => by show j.val = if (128 : Nat) = 1 then 0 else j.val; rw [if_neg (by decide)]))

/-- The second layer's affine map as the reference computes it. -/
theorem affine2 (h a : FVec Ideal S50000x256 .f32) (W : FVec Ideal S512x128 .f32) (b : FVec Ideal S128 .f32) :
    addf (F := Ideal) (Host.dotGeneral dot_S50000x512_S512x128_S50000x128_1_0_0_1_n_n none (concatenate S50000x512 1 [⟨S50000x256, h⟩, ⟨S50000x256, a⟩] concatenates_S50000x256_S50000x256_S50000x512_d1) W) (broadcastInDim S50000x128 ![0, 1] bcast_S1x128_S50000x128_0_1 (broadcastInDim S1x128 ![1] bcast_S128_S1x128_1 b))
      = lin2 h a W b := by
  funext i
  obtain ⟨r, j, rfl⟩ : ∃ (r : Fin 50000) (j : Fin 128), i = ix2 r j := ⟨i 0, i 1, eq_ix2 i⟩
  rw [addf_apply, dot2_apply, bias2_apply, sum_split_512]
  simp only [cat2_left, cat2_right]
  rfl

/-! ## The log-softmax -/

/-- A column spread over the lanes reads its row's entry. -/
theorem spread_apply {α : Type} (z : S50000x1.Idx → α) (r : Fin 50000) (j : Fin 128) :
    broadcastInDim S50000x128 ![0, 1] bcast_S50000x1_S50000x128_0_1 z (ix2 r j) = z (ix2 r (0 : Fin 1)) :=
  broadcastInDim_apply _ bcast_S50000x1_S50000x128_0_1 z (ix2 r j) (ix2 r (0 : Fin 1)) (fun a => match a with
    | ⟨0, _⟩ => by show r.val = if (50000 : Nat) = 1 then 0 else r.val; rw [if_neg (by decide)]
    | ⟨1, _⟩ => by show 0 = if (1 : Nat) = 1 then 0 else j.val; rw [if_pos rfl])

/-- A vector stood up as a column reads its entry. -/
theorem column_apply {α : Type} (z : S50000.Idx → α) (r : Fin 50000) :
    broadcastInDim S50000x1 ![0] bcast_S50000_S50000x1_0 z (ix2 r (0 : Fin 1)) = z (ix1 r) :=
  broadcastInDim_apply _ bcast_S50000_S50000x1_0 z (ix2 r (0 : Fin 1)) (ix1 r) (fun a => match a with
    | ⟨0, _⟩ => by show r.val = if (50000 : Nat) = 1 then 0 else r.val; rw [if_neg (by decide)])

/-- The pattern of `-∞` is the bottom element. -/
theorem ofBits_neg_inf : Ideal.ofBits .f32 0xFF800000#32 = (⊥ : EReal) := by simp [Ideal.ofBits, Ideal.ieee]

/-- The fold of `max` along the lanes from `-∞` is the row's maximum. -/
theorem hostRowMax_apply (y : FVec Ideal S50000x128 .f32) (r : Fin 50000) :
    Host.reduce FloatOps.maximumf y (constant (F := Ideal) S_ .f32 0xFF800000#32) reducesTo_S50000x128_S50000_d1 h_S_ (ix1 r)
      = rowMax (fun l => y (ix2 r l)) := by
  rw [Host.reduce_eq_fold_single FloatOps.maximumf y _ reducesTo_S50000x128_S50000_d1 (by decide) h_S_ (ix1 r)]
  have e2 : (y ∘ (show S50000x128.Reduces [1] S50000 by decide).lift (ix1 r)) = fun l : Fin 128 => y (ix2 r l) :=
    funext fun k => congrArg y (funext fun a => Fin.ext (by match a with | ⟨0, _⟩ => rfl | ⟨1, _⟩ => rfl))
  rw [e2, constant_apply, ofBits_neg_inf]
  rfl

/-- The row maximum as the reference's log-softmax takes it, spread back over the lanes. -/
def rmax (y : FVec Ideal S50000x128 .f32) : FVec Ideal S50000x128 .f32 :=
  broadcastInDim S50000x128 ![0, 1] bcast_S50000x1_S50000x128_0_1 (broadcastInDim S50000x1 ![0] bcast_S50000_S50000x1_0 (maximumf (F := Ideal) (broadcastInDim S50000 ![] bcast_S_S50000 (constant S_ .f32 0xFF800000#32)) (Host.reduce FloatOps.maximumf y (constant S_ .f32 0xFF800000#32) reducesTo_S50000x128_S50000_d1 h_S_)))

/-- The reference's row maximum, spread over the lanes, is the row's maximum at every lane. -/
theorem rmax_apply (y : FVec Ideal S50000x128 .f32) (r : Fin 50000) (j : Fin 128) :
    rmax y (ix2 r j) = rowMax (fun l => y (ix2 r l)) := by
  unfold rmax
  rw [spread_apply, column_apply, maximumf_apply, hostRowMax_apply,
    broadcastInDim_apply _ bcast_S_S50000 _ (ix1 r) ix0 (fun a => a.elim0), constant_apply, ofBits_neg_inf]
  exact max_eq_right bot_le

/-- The sum along the lanes from zero is the row's sum. -/
theorem hostRowSum_apply (e : FVec Ideal S50000x128 .f32) (r : Fin 50000) :
    Host.reduceAdd e (constant (F := Ideal) S_ .f32 0x00000000#32) reducesTo_S50000x128_S50000_d1 h_S_ (ix1 r)
      = ∑ k : Fin 128, e (ix2 r k) := by
  simp only [Host.reduceAdd, Ideal.hostReduceAdd_def]
  rw [Ideal.hostReduceAdd_single reducesTo_S50000x128_S50000_d1 (by decide)]
  show Ideal.ofBits .f32 0x00000000#32 + _ = _
  rw [Ideal.ofBits_zero_f32, zero_add]
  refine Finset.sum_congr rfl fun k _ => ?_
  exact congrArg e (funext fun a => Fin.ext (by match a with | ⟨0, _⟩ => rfl | ⟨1, _⟩ => rfl))

/-- The logarithm and the exponential act entry by entry. -/
theorem hostLog_apply {s : Shape} (z : FVec Ideal s .f32) (i : s.Idx) : Host.log z i = Ideal.log (z i) := rfl
theorem hostExp_apply {s : Shape} (z : FVec Ideal s .f32) (i : s.Idx) : Host.exp z i = Ideal.exp (z i) := rfl

/-- The reference's log-softmax: `(y − M) − log Σ exp(y − M)` with `M` the row maximum. -/
theorem logSoftmax (y : FVec Ideal S50000x128 .f32) :
    subf (F := Ideal) (subf y (rmax y)) (broadcastInDim S50000x128 ![0, 1] bcast_S50000x1_S50000x128_0_1 (Host.log (broadcastInDim S50000x1 ![0] bcast_S50000_S50000x1_0 (Host.reduceAdd (Host.exp (subf y (rmax y))) (constant S_ .f32 0x00000000#32) reducesTo_S50000x128_S50000_d1 h_S_))))
      = lsmR y := by
  funext i
  obtain ⟨r, j, rfl⟩ : ∃ (r : Fin 50000) (j : Fin 128), i = ix2 r j := ⟨i 0, i 1, eq_ix2 i⟩
  rw [subf_apply, subf_apply, spread_apply, rmax_apply, hostLog_apply, column_apply, hostRowSum_apply]
  simp only [hostExp_apply, subf_apply, rmax_apply]
  rfl

end Cert.Sage.R

end
-- ==== Proof.RRun.lean ====
/-
  The reference program's run, read back stretch by stretch. The program is a straight line of 71 array operations;
  cut at the layer seams into five stretches, each stretch reads the earlier results as given arrays: the first leaves
  the reciprocal degrees 1 / max(deg, 1) and the mean-pooled input features, the second the rectified first layer, the
  third the mean-pooled hidden features, the fourth the second layer's affine map y, the fifth its row-wise log-softmax
  (y − M) − log Σ exp(y − M), M the row's maximum. No stretch writes an argument: the seven arguments end as they began.
-/
import proofs.«160203_j28913719837490_1_alg».proof.Proof.Gen.ReferenceIdeal
import proofs.«160203_j28913719837490_1_alg».proof.Proof.RLayers
import proofs.«160203_j28913719837490_1_alg».proof.Proof.Model
import Idealize.ShloMosaic.Lib.StableHlo.Run
import Idealize.ShloMosaic.Lib.Pipeline.Frame

set_option maxRecDepth 16384

noncomputable section

namespace Cert.Sage.RR

open Idealize.ShloMosaic Idealize.ShloMosaic.TcCoe Idealize.SL.Sem Idealize.ShloMosaic.StableHlo
open Cert.ReferenceIdeal Cert.ReferenceIdeal.Gen Cert.Sage

/-! ## The program's 71 operations, cut at the layer seams -/

section Lists

variable {F : FTy → Type} [FloatOps F]

/-- Operations 1 to 28: the reciprocal degrees and the pooled input features. -/
abbrev opsA : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v6 (broadcastInDim S50000 ![] bcast_S_S50000 : (⟨S_, .f32⟩ : BufTy).Contents (Elt F) → (⟨S50000, .f32⟩ : BufTy).Contents (Elt F)),
    binary main_v6 main_v5 main_v7 (Host.divf : (⟨S50000, .f32⟩ : BufTy).Contents (Elt F) → (⟨S50000, .f32⟩ : BufTy).Contents (Elt F) → (⟨S50000, .f32⟩ : BufTy).Contents (Elt F)),
    unary main_v7 main_v8 (broadcastInDim S50000x1 ![0] bcast_S50000_S50000x1_0 : (⟨S50000, .f32⟩ : BufTy).Contents (Elt F) → (⟨S50000x1, .f32⟩ : BufTy).Contents (Elt F)),
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_arg1 main_v9 main_v10 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v11 (broadcastInDim S800000 ![] bcast_S_S800000 : (⟨S_, .i32⟩ : BufTy).Contents (Elt F) → (⟨S800000, .i32⟩ : BufTy).Contents (Elt F)),
    binary main_arg1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_arg1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_arg0 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v16 (broadcastInDim S50000x128 ![] bcast_S_S50000x128 : (⟨S_, .f32⟩ : BufTy).Contents (Elt F) → (⟨S50000x128, .f32⟩ : BufTy).Contents (Elt F)),
    unary main_arg2 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v8 main_v19 (broadcastInDim S50000x128 ![0, 1] bcast_S50000x1_S50000x128_0_1 : (⟨S50000x1, .f32⟩ : BufTy).Contents (Elt F) → (⟨S50000x128, .f32⟩ : BufTy).Contents (Elt F)),
    binary main_v18 main_v19 main_v20 (mulf : (⟨S50000x128, .f32⟩ : BufTy).Contents (Elt F) → (⟨S50000x128, .f32⟩ : BufTy).Contents (Elt F) → (⟨S50000x128, .f32⟩ : BufTy).Contents (Elt F)) ]

/-- Operations 29 to 36: the first layer, its rectifier written out. -/
abbrev opsB : List (HloOp τ sig (Elt F)) :=
  [ binary main_arg0 main_v20 main_v21 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v21 main_arg3 main_v22 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg4 main_v23 (broadcastInDim S1x256 ![1] bcast_S256_S1x256_1 : (⟨S256, .f32⟩ : BufTy).Contents (Elt F) → (⟨S1x256, .f32⟩ : BufTy).Contents (Elt F)),
    unary main_v23 main_v24 (broadcastInDim S50000x256 ![0, 1] bcast_S1x256_S50000x256_0_1 : (⟨S1x256, .f32⟩ : BufTy).Contents (Elt F) → (⟨S50000x256, .f32⟩ : BufTy).Contents (Elt F)),
    binary main_v22 main_v24 main_v25 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v25) (TRef.of (T := ⟨S50000x256, .f32⟩) main_call0_v0) (TRef.of (T := ⟨S50000x256, .f32⟩) main_v26) maximumf ]

/-- Operations 37 to 51: the pooled hidden features. -/
abbrev opsC : List (HloOp τ sig (Elt F)) :=
  [ nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_arg1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_arg1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_arg1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v26 main_v32 main_v33 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v34 (broadcastInDim S50000x256 ![] bcast_S_S50000x256 : (⟨S_, .f32⟩ : BufTy).Contents (Elt F) → (⟨S50000x256, .f32⟩ : BufTy).Contents (Elt F)),
    unary main_arg2 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v8 main_v37 (broadcastInDim S50000x256 ![0, 1] bcast_S50000x1_S50000x256_0_1 : (⟨S50000x1, .f32⟩ : BufTy).Contents (Elt F) → (⟨S50000x256, .f32⟩ : BufTy).Contents (Elt F)),
    binary main_v36 main_v37 main_v38 (mulf : (⟨S50000x256, .f32⟩ : BufTy).Contents (Elt F) → (⟨S50000x256, .f32⟩ : BufTy).Contents (Elt F) → (⟨S50000x256, .f32⟩ : BufTy).Contents (Elt F)) ]

/-- Operations 52 to 56: the second layer's affine map. -/
abbrev opsD1 : List (HloOp τ sig (Elt F)) :=
  [ binary main_v26 main_v38 main_v39 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    binary main_v39 main_arg5 main_v40 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg6 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)) ]

/-- Operations 57 to 71: the row-wise log-softmax, written out. -/
abbrev opsD2 : List (HloOp τ sig (Elt F)) :=
  [ TRef.nullary (TRef.of (T := ⟨S_, .f32⟩) main_call1_cst) (constant S_ .f32 0xFF800000#32),
    TRef.binary (TRef.of (T := ⟨S50000x128, .f32⟩) main_v43) (TRef.of (T := ⟨S_, .f32⟩) main_call1_cst) (TRef.of (T := ⟨S50000, .f32⟩) main_call1_v0) (fun x v => Host.reduce FloatOps.maximumf x v reducesTo_S50000x128_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x128, .f32⟩) main_call1_v4) (broadcastInDim S50000x128 ![0, 1] bcast_S50000x1_S50000x128_0_1),
    TRef.binary (TRef.of (T := ⟨S50000x128, .f32⟩) main_v43) (TRef.of (T := ⟨S50000x128, .f32⟩) main_call1_v4) (TRef.of (T := ⟨S50000x128, .f32⟩) main_call1_v5) subf,
    TRef.unary (TRef.of (T := ⟨S50000x128, .f32⟩) main_call1_v5) (TRef.of (T := ⟨S50000x128, .f32⟩) main_call1_v6) Host.exp,
    TRef.nullary (TRef.of (T := ⟨S_, .f32⟩) main_call1_cst_1) (constant S_ .f32 0x00000000#32),
    TRef.binary (TRef.of (T := ⟨S50000x128, .f32⟩) main_call1_v6) (TRef.of (T := ⟨S_, .f32⟩) main_call1_cst_1) (TRef.of (T := ⟨S50000, .f32⟩) main_call1_v7) (fun x v => Host.reduceAdd x v reducesTo_S50000x128_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x128, .f32⟩) main_call1_v10) (broadcastInDim S50000x128 ![0, 1] bcast_S50000x1_S50000x128_0_1),
    TRef.binary (TRef.of (T := ⟨S50000x128, .f32⟩) main_call1_v5) (TRef.of (T := ⟨S50000x128, .f32⟩) main_call1_v10) (TRef.of (T := ⟨S50000x128, .f32⟩) main_v44) subf ]

set_option maxRecDepth 8192 in
set_option maxHeartbeats 4000000 in
theorem main_eq (c : Dev nD) : main (F := F) c = seq (opsA ++ (opsB ++ (opsC ++ (opsD1 ++ opsD2)))) := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem opsB_sub : (opsB : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem opsD1_sub : (opsD1 : List (HloOp τ sig (Elt F))).Forall fun op => op.bufs ⊆ tcRefs τ sig :=
  ⟨binary_bufs_sub .., binary_bufs_sub .., unary_bufs_sub .., unary_bufs_sub .., binary_bufs_sub ..⟩
theorem opsD2_sub : (opsD2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation of the whole line stays within the core's buffers. -/
theorem ops_sub : (opsA ++ (opsB ++ (opsC ++ (opsD1 ++ opsD2))) : List (HloOp τ sig (Elt F))).Forall fun op => op.bufs ⊆ tcRefs τ sig :=
  List.forall_append.2 ⟨opsA_sub, List.forall_append.2 ⟨opsB_sub, List.forall_append.2 ⟨opsC_sub, List.forall_append.2 ⟨opsD1_sub, opsD2_sub⟩⟩⟩⟩

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD1_fresh : ∀ op ∈ (opsD1 : List (HloOp τ sig (Elt F))), op.fresh = ∅ := by
  intro _ h; (repeat (cases h with | head => rfl | tail _ h => ?_)); exact nomatch h
theorem opsD2_fresh : ∀ op ∈ (opsD2 : List (HloOp τ sig (Elt F))), op.fresh = ∅ := by
  intro _ h; (repeat (cases h with | head => rfl | tail _ h => ?_)); exact nomatch h

/-- No operation of the whole line allocates: each determines its result. -/
theorem ops_fresh : ∀ op ∈ (opsA ++ (opsB ++ (opsC ++ (opsD1 ++ opsD2))) : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  rcases List.mem_append.1 h with h | h
  · exact opsD1_fresh op h
  · exact opsD2_fresh op h

end Lists

/-! ## The run, stretch by stretch -/

section Run

variable (m : (ℓ : Loc nD τ sig) → Buf (Elt Ideal) ℓ) (c : Dev nD)

/-- The buffers after each stretch, from the launch contents. -/
def V1 : Valuation τ sig (Elt Ideal) := StableHlo.after (opsA (F := Ideal)) (launchContents m c)
def V2 : Valuation τ sig (Elt Ideal) := StableHlo.after (opsB (F := Ideal)) (V1 m c)
def V3 : Valuation τ sig (Elt Ideal) := StableHlo.after (opsC (F := Ideal)) (V2 m c)
def V4 : Valuation τ sig (Elt Ideal) := StableHlo.after (opsD1 (F := Ideal)) (V3 m c)
def V5 : Valuation τ sig (Elt Ideal) := StableHlo.after (opsD2 (F := Ideal)) (V4 m c)

theorem after_all (b : DevRef τ sig) :
    StableHlo.after (opsA (F := Ideal) ++ (opsB ++ (opsC ++ (opsD1 ++ opsD2)))) (launchContents m c) b = V5 m c b := by
  rw [StableHlo.after_append, StableHlo.after_append, StableHlo.after_append, StableHlo.after_append]
  rfl

/-! ### After the first stretch: the arguments, the reciprocal degrees, the pooled input features -/

theorem A_arg0 : V1 m c (Proc.devRef .tc main_arg0) = m ((c.tc : Thread nD τ).loc main_arg0) := by
  show StableHlo.after (opsA (F := Ideal)) (launchContents m c) (Proc.devRef .tc main_arg0) = _
  after_results_simp <;> rfl
theorem A_arg1 : V1 m c (Proc.devRef .tc main_arg1) = m ((c.tc : Thread nD τ).loc main_arg1) := by
  show StableHlo.after (opsA (F := Ideal)) (launchContents m c) (Proc.devRef .tc main_arg1) = _
  after_results_simp <;> rfl
theorem A_arg2 : V1 m c (Proc.devRef .tc main_arg2) = m ((c.tc : Thread nD τ).loc main_arg2) := by
  show StableHlo.after (opsA (F := Ideal)) (launchContents m c) (Proc.devRef .tc main_arg2) = _
  after_results_simp <;> rfl
theorem A_arg3 : V1 m c (Proc.devRef .tc main_arg3) = m ((c.tc : Thread nD τ).loc main_arg3) := by
  show StableHlo.after (opsA (F := Ideal)) (launchContents m c) (Proc.devRef .tc main_arg3) = _
  after_results_simp <;> rfl
theorem A_arg4 : V1 m c (Proc.devRef .tc main_arg4) = m ((c.tc : Thread nD τ).loc main_arg4) := by
  show StableHlo.after (opsA (F := Ideal)) (launchContents m c) (Proc.devRef .tc main_arg4) = _
  after_results_simp <;> rfl
theorem A_arg5 : V1 m c (Proc.devRef .tc main_arg5) = m ((c.tc : Thread nD τ).loc main_arg5) := by
  show StableHlo.after (opsA (F := Ideal)) (launchContents m c) (Proc.devRef .tc main_arg5) = _
  after_results_simp <;> rfl
theorem A_arg6 : V1 m c (Proc.devRef .tc main_arg6) = m ((c.tc : Thread nD τ).loc main_arg6) := by
  show StableHlo.after (opsA (F := Ideal)) (launchContents m c) (Proc.devRef .tc main_arg6) = _
  after_results_simp <;> rfl

theorem A_v8 : V1 m c (Proc.devRef .tc main_v8) = invDeg (m ((c.tc : Thread nD τ).loc main_arg2)) := by
  show StableHlo.after (opsA (F := Ideal)) (launchContents m c) (Proc.devRef .tc main_v8) = _
  after_results_simp <;> rfl

theorem A_v20 : V1 m c (Proc.devRef .tc main_v20)
    = agg1 (m ((c.tc : Thread nD τ).loc main_arg0)) (m ((c.tc : Thread nD τ).loc main_arg1)) (m ((c.tc : Thread nD τ).loc main_arg2)) := by
  show StableHlo.after (opsA (F := Ideal)) (launchContents m c) (Proc.devRef .tc main_v20) = _
  after_results_simp <;> rfl

/-! ### After the second stretch: the hidden features -/

theorem B_arg0 : V2 m c (Proc.devRef .tc main_arg0) = m ((c.tc : Thread nD τ).loc main_arg0) := by
  show StableHlo.after (opsB (F := Ideal)) (V1 m c) (Proc.devRef .tc main_arg0) = _
  after_results_simp
  exact A_arg0 m c
theorem B_arg1 : V2 m c (Proc.devRef .tc main_arg1) = m ((c.tc : Thread nD τ).loc main_arg1) := by
  show StableHlo.after (opsB (F := Ideal)) (V1 m c) (Proc.devRef .tc main_arg1) = _
  after_results_simp
  exact A_arg1 m c
theorem B_arg2 : V2 m c (Proc.devRef .tc main_arg2) = m ((c.tc : Thread nD τ).loc main_arg2) := by
  show StableHlo.after (opsB (F := Ideal)) (V1 m c) (Proc.devRef .tc main_arg2) = _
  after_results_simp
  exact A_arg2 m c
theorem B_arg3 : V2 m c (Proc.devRef .tc main_arg3) = m ((c.tc : Thread nD τ).loc main_arg3) := by
  show StableHlo.after (opsB (F := Ideal)) (V1 m c) (Proc.devRef .tc main_arg3) = _
  after_results_simp
  exact A_arg3 m c
theorem B_arg4 : V2 m c (Proc.devRef .tc main_arg4) = m ((c.tc : Thread nD τ).loc main_arg4) := by
  show StableHlo.after (opsB (F := Ideal)) (V1 m c) (Proc.devRef .tc main_arg4) = _
  after_results_simp
  exact A_arg4 m c
theorem B_arg5 : V2 m c (Proc.devRef .tc main_arg5) = m ((c.tc : Thread nD τ).loc main_arg5) := by
  show StableHlo.after (opsB (F := Ideal)) (V1 m c) (Proc.devRef .tc main_arg5) = _
  after_results_simp
  exact A_arg5 m c
theorem B_arg6 : V2 m c (Proc.devRef .tc main_arg6) = m ((c.tc : Thread nD τ).loc main_arg6) := by
  show StableHlo.after (opsB (F := Ideal)) (V1 m c) (Proc.devRef .tc main_arg6) = _
  after_results_simp
  exact A_arg6 m c

theorem B_v8 : V2 m c (Proc.devRef .tc main_v8) = invDeg (m ((c.tc : Thread nD τ).loc main_arg2)) := by
  show StableHlo.after (opsB (F := Ideal)) (V1 m c) (Proc.devRef .tc main_v8) = _
  after_results_simp
  exact A_v8 m c

theorem B_v26 : V2 m c (Proc.devRef .tc main_v26)
    = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after (opsB (F := Ideal)) (V1 m c) (Proc.devRef .tc main_v26) = _
  after_results_simp
  rw [A_arg0 m c, A_v20 m c, A_arg3 m c, A_arg4 m c]
  exact R.layer1 _ _ _ _

/-! ### After the third stretch: the pooled hidden features -/

theorem C_arg0 : V3 m c (Proc.devRef .tc main_arg0) = m ((c.tc : Thread nD τ).loc main_arg0) := by
  show StableHlo.after (opsC (F := Ideal)) (V2 m c) (Proc.devRef .tc main_arg0) = _
  after_results_simp
  exact B_arg0 m c
theorem C_arg1 : V3 m c (Proc.devRef .tc main_arg1) = m ((c.tc : Thread nD τ).loc main_arg1) := by
  show StableHlo.after (opsC (F := Ideal)) (V2 m c) (Proc.devRef .tc main_arg1) = _
  after_results_simp
  exact B_arg1 m c
theorem C_arg2 : V3 m c (Proc.devRef .tc main_arg2) = m ((c.tc : Thread nD τ).loc main_arg2) := by
  show StableHlo.after (opsC (F := Ideal)) (V2 m c) (Proc.devRef .tc main_arg2) = _
  after_results_simp
  exact B_arg2 m c
theorem C_arg3 : V3 m c (Proc.devRef .tc main_arg3) = m ((c.tc : Thread nD τ).loc main_arg3) := by
  show StableHlo.after (opsC (F := Ideal)) (V2 m c) (Proc.devRef .tc main_arg3) = _
  after_results_simp
  exact B_arg3 m c
theorem C_arg4 : V3 m c (Proc.devRef .tc main_arg4) = m ((c.tc : Thread nD τ).loc main_arg4) := by
  show StableHlo.after (opsC (F := Ideal)) (V2 m c) (Proc.devRef .tc main_arg4) = _
  after_results_simp
  exact B_arg4 m c
theorem C_arg5 : V3 m c (Proc.devRef .tc main_arg5) = m ((c.tc : Thread nD τ).loc main_arg5) := by
  show StableHlo.after (opsC (F := Ideal)) (V2 m c) (Proc.devRef .tc main_arg5) = _
  after_results_simp
  exact B_arg5 m c
theorem C_arg6 : V3 m c (Proc.devRef .tc main_arg6) = m ((c.tc : Thread nD τ).loc main_arg6) := by
  show StableHlo.after (opsC (F := Ideal)) (V2 m c) (Proc.devRef .tc main_arg6) = _
  after_results_simp
  exact B_arg6 m c

theorem C_v26 : V3 m c (Proc.devRef .tc main_v26)
    = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after (opsC (F := Ideal)) (V2 m c) (Proc.devRef .tc main_v26) = _
  after_results_simp
  exact B_v26 m c

theorem C_v38 : V3 m c (Proc.devRef .tc main_v38)
    = agg2 (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        (m ((c.tc : Thread nD τ).loc main_arg1)) (m ((c.tc : Thread nD τ).loc main_arg2)) := by
  show StableHlo.after (opsC (F := Ideal)) (V2 m c) (Proc.devRef .tc main_v38) = _
  after_results_simp
  rw [B_v26 m c, B_arg1 m c, B_arg2 m c, B_v8 m c]
  rfl

/-! ### After the fourth stretch: the second layer's affine map -/

theorem D_arg0 : V4 m c (Proc.devRef .tc main_arg0) = m ((c.tc : Thread nD τ).loc main_arg0) := by
  show StableHlo.after (opsD1 (F := Ideal)) (V3 m c) (Proc.devRef .tc main_arg0) = _
  after_results_simp
  exact C_arg0 m c
theorem D_arg1 : V4 m c (Proc.devRef .tc main_arg1) = m ((c.tc : Thread nD τ).loc main_arg1) := by
  show StableHlo.after (opsD1 (F := Ideal)) (V3 m c) (Proc.devRef .tc main_arg1) = _
  after_results_simp
  exact C_arg1 m c
theorem D_arg2 : V4 m c (Proc.devRef .tc main_arg2) = m ((c.tc : Thread nD τ).loc main_arg2) := by
  show StableHlo.after (opsD1 (F := Ideal)) (V3 m c) (Proc.devRef .tc main_arg2) = _
  after_results_simp
  exact C_arg2 m c
theorem D_arg3 : V4 m c (Proc.devRef .tc main_arg3) = m ((c.tc : Thread nD τ).loc main_arg3) := by
  show StableHlo.after (opsD1 (F := Ideal)) (V3 m c) (Proc.devRef .tc main_arg3) = _
  after_results_simp
  exact C_arg3 m c
theorem D_arg4 : V4 m c (Proc.devRef .tc main_arg4) = m ((c.tc : Thread nD τ).loc main_arg4) := by
  show StableHlo.after (opsD1 (F := Ideal)) (V3 m c) (Proc.devRef .tc main_arg4) = _
  after_results_simp
  exact C_arg4 m c
theorem D_arg5 : V4 m c (Proc.devRef .tc main_arg5) = m ((c.tc : Thread nD τ).loc main_arg5) := by
  show StableHlo.after (opsD1 (F := Ideal)) (V3 m c) (Proc.devRef .tc main_arg5) = _
  after_results_simp
  exact C_arg5 m c
theorem D_arg6 : V4 m c (Proc.devRef .tc main_arg6) = m ((c.tc : Thread nD τ).loc main_arg6) := by
  show StableHlo.after (opsD1 (F := Ideal)) (V3 m c) (Proc.devRef .tc main_arg6) = _
  after_results_simp
  exact C_arg6 m c

theorem D_v43 : V4 m c (Proc.devRef .tc main_v43)
    = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after (opsD1 (F := Ideal)) (V3 m c) (Proc.devRef .tc main_v43) = _
  after_results_simp
  rw [C_v26 m c, C_v38 m c, C_arg5 m c, C_arg6 m c]
  exact R.affine2 _ _ _ _

/-! ### After the last stretch: the result -/

/-- Transport along an equation of a type with itself changes nothing. -/
theorem cast_same {α : Sort _} (h : α = α) (a : α) : cast h a = a := eq_of_heq (cast_heq h a)

/-- The log-softmax with the row maximum written out: the form in which the last stretch leaves it. -/
theorem lsm_spelt (y : FVec Ideal S50000x128 .f32) :
    subf (F := Ideal)
      (subf y
        (broadcastInDim S50000x128 ![0, 1] bcast_S50000x1_S50000x128_0_1
          (broadcastInDim S50000x1 ![0] bcast_S50000_S50000x1_0
            (maximumf (broadcastInDim S50000 ![] bcast_S_S50000 (constant S_ .f32 0xFF800000#32))
              (Host.reduce FloatOps.maximumf y (constant S_ .f32 0xFF800000#32) reducesTo_S50000x128_S50000_d1 h_S_)))))
      (broadcastInDim S50000x128 ![0, 1] bcast_S50000x1_S50000x128_0_1
        (Host.log
          (broadcastInDim S50000x1 ![0] bcast_S50000_S50000x1_0
            (Host.reduceAdd
              (Host.exp
                (subf y
                  (broadcastInDim S50000x128 ![0, 1] bcast_S50000x1_S50000x128_0_1
                    (broadcastInDim S50000x1 ![0] bcast_S50000_S50000x1_0
                      (maximumf (broadcastInDim S50000 ![] bcast_S_S50000 (constant S_ .f32 0xFF800000#32))
                        (Host.reduce FloatOps.maximumf y (constant S_ .f32 0xFF800000#32) reducesTo_S50000x128_S50000_d1 h_S_))))))
              (constant S_ .f32 0x00000000#32) reducesTo_S50000x128_S50000_d1 h_S_))))
      = lsmR y :=
  R.logSoftmax y

theorem E_arg0 : V5 m c (Proc.devRef .tc main_arg0) = m ((c.tc : Thread nD τ).loc main_arg0) := by
  show StableHlo.after (opsD2 (F := Ideal)) (V4 m c) (Proc.devRef .tc main_arg0) = _
  after_results_simp
  exact D_arg0 m c
theorem E_arg1 : V5 m c (Proc.devRef .tc main_arg1) = m ((c.tc : Thread nD τ).loc main_arg1) := by
  show StableHlo.after (opsD2 (F := Ideal)) (V4 m c) (Proc.devRef .tc main_arg1) = _
  after_results_simp
  exact D_arg1 m c
theorem E_arg2 : V5 m c (Proc.devRef .tc main_arg2) = m ((c.tc : Thread nD τ).loc main_arg2) := by
  show StableHlo.after (opsD2 (F := Ideal)) (V4 m c) (Proc.devRef .tc main_arg2) = _
  after_results_simp
  exact D_arg2 m c
theorem E_arg3 : V5 m c (Proc.devRef .tc main_arg3) = m ((c.tc : Thread nD τ).loc main_arg3) := by
  show StableHlo.after (opsD2 (F := Ideal)) (V4 m c) (Proc.devRef .tc main_arg3) = _
  after_results_simp
  exact D_arg3 m c
theorem E_arg4 : V5 m c (Proc.devRef .tc main_arg4) = m ((c.tc : Thread nD τ).loc main_arg4) := by
  show StableHlo.after (opsD2 (F := Ideal)) (V4 m c) (Proc.devRef .tc main_arg4) = _
  after_results_simp
  exact D_arg4 m c
theorem E_arg5 : V5 m c (Proc.devRef .tc main_arg5) = m ((c.tc : Thread nD τ).loc main_arg5) := by
  show StableHlo.after (opsD2 (F := Ideal)) (V4 m c) (Proc.devRef .tc main_arg5) = _
  after_results_simp
  exact D_arg5 m c
theorem E_arg6 : V5 m c (Proc.devRef .tc main_arg6) = m ((c.tc : Thread nD τ).loc main_arg6) := by
  show StableHlo.after (opsD2 (F := Ideal)) (V4 m c) (Proc.devRef .tc main_arg6) = _
  after_results_simp
  exact D_arg6 m c

theorem E_v44 : V5 m c (Proc.devRef .tc main_v44)
    = lsmR (logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show StableHlo.after (opsD2 (F := Ideal)) (V4 m c) (Proc.devRef .tc main_v44) = _
  after_results_simp
  simp only [TRef.ofBuf, TRef.toBuf, cast_same]
  exact (lsm_spelt (V4 m c (Proc.devRef .tc main_v43))).trans (congrArg lsmR (D_v43 m c))

end Run

/-- Every weakly fair execution of the reference program ends with its result at the log-softmax, in the arrangement
    `(y − M) − log Σ exp(y − M)`, of the second layer's affine map, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44)
        = lsmR (logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c main_v44).trans (after_all m c _)).trans (E_v44 m c),
       ((h c main_arg0).trans (after_all m c _)).trans (E_arg0 m c),
       ((h c main_arg1).trans (after_all m c _)).trans (E_arg1 m c),
       ((h c main_arg2).trans (after_all m c _)).trans (E_arg2 m c),
       ((h c main_arg3).trans (after_all m c _)).trans (E_arg3 m c),
       ((h c main_arg4).trans (after_all m c _)).trans (E_arg4 m c),
       ((h c main_arg5).trans (after_all m c _)).trans (E_arg5 m c),
       ((h c main_arg6).trans (after_all m c _)).trans (E_arg6 m c)⟩)
    (run_seq scopedRefs_eq scopedSems_eq defs main (fun _ => opsA ++ (opsB ++ (opsC ++ (opsD1 ++ opsD2)))) main_eq (fun _ => ops_sub) m ρ
      (fun _ => ops_fresh))

end Cert.Sage.RR

end
-- ==== Proof.Pre.lean ====
/-
  Under the precondition every float argument holds real numbers.

  The precondition is a conjunction of five statements, one per float array: for every entry x, |x| < +∞, where
  |x| is the larger of x and -x and +∞ is what the single-precision pattern 0x7F800000 denotes. Among the extended
  reals |+∞| = |-∞| = +∞, which is not below +∞; so each entry is neither infinity, that is, a real number.
-/
import proofs.«160203_j28913719837490_1_alg».proof.Defs
import proofs.«160203_j28913719837490_1_alg».proof.Proof.Gen.KernelIdeal
import proofs.«160203_j28913719837490_1_alg».proof.Proof.Gen.Pre_finite_inputs
import proofs.«160203_j28913719837490_1_alg».proof.Proof.LibFinite
import Idealize.ShloMosaic.Lib.ReduceAll
import Idealize.ShloMosaic.Lib.ValueIdx

noncomputable section

namespace Cert.Sage

open Idealize.ShloMosaic Idealize.ShloMosaic.ValueIdx Idealize.SL.Sem

/-- The shape of a scalar has exactly one index. -/
instance subsingleton_scalar_idx : Subsingleton Cert.Pre_finite_inputs.S_.Idx :=
  ⟨fun a b => funext fun d => d.elim0⟩

/-- An extended real whose absolute value, the larger of itself and its negation, lies below
    plus infinity is a real number: either infinity has absolute value plus infinity. -/
theorem isReal_of_abs_lt_top (x : EReal) (h : max x (-x) < ⊤) : IsReal x := by
  induction x using EReal.rec with
  | bot => simp at h
  | coe r => exact ⟨r, rfl⟩
  | top => simp at h

/-- The single-precision pattern with exponent all ones and significand zero denotes plus infinity,
    so an entry whose absolute value compares below that pattern is a real number. -/
theorem isReal_of_cmp (x : Ideal .f32)
    (h : FloatOps.cmpf .olt (FloatOps.hostAbsf x) (FloatOps.ofBits (F := Ideal) .f32 0x7F800000#32) = 1#1) :
    IsReal x := by
  have e : FloatOps.ofBits (F := Ideal) .f32 0x7F800000#32 = (⊤ : EReal) := by
    simp [FloatOps.ofBits, Ideal.ofBits, Ideal.ieee]
  rw [e] at h
  change BitVec.ofBool (decide (max x (-x) < (⊤ : EReal))) = 1#1 at h
  apply isReal_of_abs_lt_top
  by_contra hn
  rw [decide_eq_false hn] at h
  exact absurd h (by decide)

/-- A float array of any shape: if the conjunction, over all its entries, of "the absolute value is below
    plus infinity" is true, every entry is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x) (broadcastInDim s ![] hb (constant Cert.Pre_finite_inputs.S_ .f32 0x7F800000#32)))
        init hr hu ix0 = 1#1) (i : s.Idx) : IsReal (x i) :=
  isReal_of_cmp (x i) (Host.reduce_andi_all _ init hr hu ix0 e i)

theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i)) := by
  have h0 := congrFun (h c) ix0
  dsimp only [Cert.Pre_finite_inputs.fn, Cert.Pre_finite_inputs.fn_part1, andi] at h0
  rw [IntOp.andi_eq_one, IntOp.andi_eq_one, IntOp.andi_eq_one, IntOp.andi_eq_one] at h0
  obtain ⟨⟨⟨⟨h0, h3⟩, h4⟩, h5⟩, h6⟩ := h0
  exact ⟨all_real _ _ _ _ _ h0, all_real _ _ _ _ _ h3, all_real _ _ _ _ _ h4, all_real _ _ _ _ _ h5,
    all_real _ _ _ _ _ h6⟩

end Cert.Sage

end
-- ==== Proof.lean ====
/-
  A two-layer mean-pooling graph network, its kernel program against its reference, over the extended reals.

  Both programs pool each node's neighbour features with the same host operations (a gather along the edges' sources, a
  scatter-add onto their destinations, a product with 1 / max(degree, 1)). The kernel program computes each layer as
  `h · W[:D] + pool(h) · W[D:] + b` in a row-blocked kernel; the reference as `[h ‖ pool(h)] · W + b`: the same sum, split
  at the seam of the joined axis. The first layer ends in `max(·, 0)` on both sides. The second ends in a log-softmax,
  which the kernel writes `y − (M + log Σ exp(y − M))` and the reference `(y − M) − log Σ exp(y − M)`, `M` the row's
  maximum: equal when `M` is a real number. Under the precondition every float argument is real, pooling, affine maps
  and the rectifier keep reals real, so every row of `y` is real and so is its maximum.

  The three frames: the kernel program's at both instances is its launch over two regions and two host stretches; the
  reference's is its run with the result dropped. No operation was rewritten by the idealization.
-/
import proofs.«160203_j28913719837490_1_alg».proof.Defs
import proofs.«160203_j28913719837490_1_alg».proof.Proof.Gen.Kernel
import proofs.«160203_j28913719837490_1_alg».proof.Proof.Gen.Kernel.Frame
import proofs.«160203_j28913719837490_1_alg».proof.Proof.Gen.KernelIdeal
import proofs.«160203_j28913719837490_1_alg».proof.Proof.Gen.KernelIdeal.Frame
import proofs.«160203_j28913719837490_1_alg».proof.Proof.Gen.ReferenceIdeal
import proofs.«160203_j28913719837490_1_alg».proof.Proof.Gen.Pre_finite_inputs
import proofs.«160203_j28913719837490_1_alg».proof.Proof.KValue
import proofs.«160203_j28913719837490_1_alg».proof.Proof.RRun
import proofs.«160203_j28913719837490_1_alg».proof.Proof.Pre
import proofs.«160203_j28913719837490_1_alg».proof.Proof.Model
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.Sage.RR.ref_run m ρ)

theorem preserves : Cert.preserves_Kernel_KernelIdeal := trivial

/-- Both programs end at the log-softmax of one array of logits, in two arrangements that agree on real rows. -/
theorem algebraic : Cert.algebraic_KernelIdeal_ReferenceIdeal := by
  intro m ρ m' ρ' hpre hagree
  refine ⟨fun c => Cert.Sage.lsmK (Cert.Sage.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    Cert.Sage.KV.run m ρ, ?_⟩
  refine (θ_run Cert.ReferenceIdeal.defs _ _).mono (fun _ h c => ⟨(h c).1.trans ?_, (h c).2⟩) (Cert.Sage.RR.ref_run m' ρ')
  obtain ⟨e0, e1, e2, e3, e4, e5, e6⟩ := hagree c
  obtain ⟨r0, r3, r4, r5, r6⟩ := Cert.Sage.pre_real m hpre c
  rw [e0, e1, e2, e3, e4, e5, e6]
  exact (Cert.Sage.model_eq _ _ _ _ _ _ _ r0 r3 r4 r5 r6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
